-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S800000 : Shape := ⟨1, ![800000]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S800000 : S_.BroadcastsInDim S800000 (![] : Fin 0 → Fin S800000.rank)
  reducesTo_S800000_S_d0 : S800000.ReducesTo [0] S_

variable [Facts]

def fn_part1 {F : FTy → Type} [FloatOps F] (main_arg3 : IVec S800000 32) (main_v15 : IVec S_ 1) (main_c_5 : IVec S_ 32) : IVec S_ 1 :=
  let main_v16 : IVec S800000 32 := broadcastInDim S800000 ![] bcast_S_S800000 main_c_5
  let main_v17 : IVec S800000 1 := cmpi .sge main_arg3 main_v16
  let main_c_6 : IVec S_ 32 := constantI S_ 32 50000#32
  let main_v18 : IVec S800000 32 := broadcastInDim S800000 ![] bcast_S_S800000 main_c_6
  let main_v19 : IVec S800000 1 := cmpi .slt main_arg3 main_v18
  let main_v20 : IVec S800000 1 := andi main_v17 main_v19
  let main_c_7 : IVec S_ 1 := constantI S_ 1 1#1
  let main_v21 : IVec S_ 1 := (fun x v => Host.reduce IntOp.andi x v reducesTo_S800000_S_d0 h_S_) main_v20 main_c_7
  let main_v22 : IVec S_ 1 := andi main_v15 main_v21
  main_v22

def fn {F : FTy → Type} [FloatOps F] (main_arg0 : FVec F S50000x128 .f32) (main_arg1 : FVec F S800000 .f32) (main_arg2 : IVec S800000 32) (main_arg3 : IVec S800000 32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S800000 .f32 := Host.absf main_arg1
  let main_cst_0 : FVec F S_ .f32 := constant S_ .f32 0x7F800000#32
  let main_v5 : FVec F S800000 .f32 := broadcastInDim S800000 ![] bcast_S_S800000 main_cst_0
  let main_v6 : IVec S800000 1 := cmpf .olt main_v4 main_v5
  let main_c_1 : IVec S_ 1 := constantI S_ 1 1#1
  let main_v7 : IVec S_ 1 := (fun x v => Host.reduce IntOp.andi x v reducesTo_S800000_S_d0 h_S_) main_v6 main_c_1
  let main_v8 : IVec S_ 1 := andi main_v3 main_v7
  let main_c_2 : IVec S_ 32 := constantI S_ 32 0#32
  let main_v9 : IVec S800000 32 := broadcastInDim S800000 ![] bcast_S_S800000 main_c_2
  let main_v10 : IVec S800000 1 := cmpi .sge main_arg2 main_v9
  let main_c_3 : IVec S_ 32 := constantI S_ 32 50000#32
  let main_v11 : IVec S800000 32 := broadcastInDim S800000 ![] bcast_S_S800000 main_c_3
  let main_v12 : IVec S800000 1 := cmpi .slt main_arg2 main_v11
  let main_v13 : IVec S800000 1 := andi main_v10 main_v12
  let main_c_4 : IVec S_ 1 := constantI S_ 1 1#1
  let main_v14 : IVec S_ 1 := (fun x v => Host.reduce IntOp.andi x v reducesTo_S800000_S_d0 h_S_) main_v13 main_c_4
  let main_v15 : IVec S_ 1 := andi main_v8 main_v14
  let main_c_5 : IVec S_ 32 := constantI S_ 32 0#32
  fn_part1 (F := F) main_arg3 main_v15 main_c_5
-- ==== Kernel.lean ====
abbrev S50000x128 : Shape := ⟨2, ![50000, 128]⟩
abbrev S800000 : Shape := ⟨1, ![800000]⟩
abbrev S50000x1 : Shape := ⟨2, ![50000, 1]⟩
abbrev S50000 : Shape := ⟨1, ![50000]⟩
abbrev S_ : Shape := ⟨0, ![]⟩
abbrev S50176 : Shape := ⟨1, ![50176]⟩
abbrev S800768 : Shape := ⟨1, ![800768]⟩
abbrev S1024 : Shape := ⟨1, ![1024]⟩
abbrev S1024x1 : Shape := ⟨2, ![1024, 1]⟩
abbrev S1x1024 : Shape := ⟨2, ![1, 1024]⟩
abbrev S1024x1024 : Shape := ⟨2, ![1024, 1024]⟩

abbrev nBuf : Space → Nat
  | .hbm => 31
  | .vmem => 14
  | .smem => 0
  | _ => 0

abbrev bufTy : (tb : Table) → Fin (tcTables nBuf tb) → BufTy
  | .hbm, ⟨0, _⟩ => ⟨S50000x128, .f32⟩
  | .hbm, ⟨1, _⟩ => ⟨S800000, .f32⟩
  | .hbm, ⟨2, _⟩ => ⟨S800000, .i32⟩
  | .hbm, ⟨3, _⟩ => ⟨S800000, .i32⟩
  | .hbm, ⟨4, _⟩ => ⟨S50000x1, .f32⟩
  | .hbm, ⟨5, _⟩ => ⟨S50000, .f32⟩
  | .hbm, ⟨6, _⟩ => ⟨S_, .i32⟩
  | .hbm, ⟨7, _⟩ => ⟨S_, .f32⟩
  | .hbm, ⟨8, _⟩ => ⟨S50176, .f32⟩
  | .hbm, ⟨9, _⟩ => ⟨S_, .i32⟩
  | .hbm, ⟨10, _⟩ => ⟨S_, .f32⟩
  | .hbm, ⟨11, _⟩ => ⟨S800768, .f32⟩
  | .hbm, ⟨12, _⟩ => ⟨S_, .i32⟩
  | .hbm, ⟨13, _⟩ => ⟨S_, .i32⟩
  | .hbm, ⟨14, _⟩ => ⟨S800768, .i32⟩
  | .hbm, ⟨15, _⟩ => ⟨S_, .i32⟩
  | .hbm, ⟨16, _⟩ => ⟨S_, .i32⟩
  | .hbm, ⟨17, _⟩ => ⟨S800768, .i32⟩
  | .hbm, ⟨18, _⟩ => ⟨S800768, .f32⟩
  | .hbm, ⟨19, _⟩ => ⟨S50176, .f32⟩
  | .hbm, ⟨20, _⟩ => ⟨S_, .f32⟩
  | .hbm, ⟨21, _⟩ => ⟨S50176, .f32⟩
  | .hbm, ⟨22, _⟩ => ⟨S50176, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .local _ .vmem, ⟨0, _⟩ => ⟨S1024, .i32⟩
  | .local _ .vmem, ⟨1, _⟩ => ⟨S1024, .i32⟩
  | .local _ .vmem, ⟨2, _⟩ => ⟨S1024, .f32⟩
  | .local _ .vmem, ⟨3, _⟩ => ⟨S1024, .f32⟩
  | .local _ .vmem, ⟨4, _⟩ => ⟨S1024, .f32⟩
  | .local _ .vmem, ⟨5, _⟩ => ⟨S1024, .f32⟩
  | .local _ .vmem, ⟨6, _⟩ => ⟨S1024, .f32⟩
  | .local _ .vmem, ⟨7, _⟩ => ⟨S1024, .f32⟩
  | .local _ .vmem, ⟨8, _⟩ => ⟨S1024, .i32⟩
  | .local _ .vmem, ⟨9, _⟩ => ⟨S1024, .i32⟩
  | .local _ .vmem, ⟨10, _⟩ => ⟨S1024, .f32⟩
  | .local _ .vmem, ⟨11, _⟩ => ⟨S1024, .f32⟩
  | .local _ .vmem, ⟨12, _⟩ => ⟨S1024, .f32⟩
  | .local _ .vmem, ⟨13, _⟩ => ⟨S1024, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_call0_v0 : Ref sig .tc := ⟨.hbm, 7, rfl⟩
abbrev main_v2 : Ref sig .tc := ⟨.hbm, 8, rfl⟩
abbrev main_c_0 : Ref sig .tc := ⟨.hbm, 9, rfl⟩
abbrev main_call1_v0 : Ref sig .tc := ⟨.hbm, 10, rfl⟩
abbrev main_v3 : Ref sig .tc := ⟨.hbm, 11, rfl⟩
abbrev main_c_1 : Ref sig .tc := ⟨.hbm, 12, rfl⟩
abbrev main_call2_v0 : Ref sig .tc := ⟨.hbm, 13, rfl⟩
abbrev main_v4 : Ref sig .tc := ⟨.hbm, 14, rfl⟩
abbrev main_c_2 : Ref sig .tc := ⟨.hbm, 15, rfl⟩
abbrev main_call3_v0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_call4_cst : Ref sig .tc := ⟨.hbm, 20, rfl⟩
abbrev main_call4_v0 : Ref sig .tc := ⟨.hbm, 21, rfl⟩
abbrev main_v8 : Ref sig .tc := ⟨.hbm, 22, rfl⟩
abbrev main_cst : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_cst_3 : Ref sig .tc := ⟨.hbm, 27, rfl⟩
abbrev main_v12 : Ref sig .tc := ⟨.hbm, 28, rfl⟩
abbrev main_cst_4 : Ref sig .tc := ⟨.hbm, 29, rfl⟩
abbrev main_v13 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13

abbrev nD : Nat := 1
abbrev τ : Topo := Topo.v7x

variable {F : FTy → Type} [FloatOps F]

abbrev grid0 : Pipeline.Grid := ⟨2, ![782, 49], ![false, false]⟩

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  ![arg0.toNat]

def cc0_transform_1 (i : grid0.Coords) : Fin 1 → Nat :=
  let arg0 : BitVec 32 := BitVec.ofNat 32 (i 0).val
  let arg1 : BitVec 32 := BitVec.ofNat 32 (i 1).val
  let c0_i32 : BitVec 32 := 0#32
  ![arg0.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  ![arg1.toNat]

def cc0_transform_3 (i : grid0.Coords) : Fin 1 → Nat :=
  let arg0 : BitVec 32 := BitVec.ofNat 32 (i 0).val
  let arg1 : BitVec 32 := BitVec.ofNat 32 (i 1).val
  let c0_i32 : BitVec 32 := 0#32
  ![arg0.toNat]

abbrev stage0_0 : Fin 2 → Memref sig .tc .vmem S1024 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev grid1 : Pipeline.Grid := ⟨2, ![49, 782], ![false, false]⟩

def cc1_transform_0 (i : grid1.Coords) : Fin 1 → Nat :=
  let arg0 : BitVec 32 := BitVec.ofNat 32 (i 0).val
  let arg1 : BitVec 32 := BitVec.ofNat 32 (i 1).val
  let c0_i32 : BitVec 32 := 0#32
  ![arg1.toNat]

def cc1_transform_1 (i : grid1.Coords) : Fin 1 → Nat :=
  let arg0 : BitVec 32 := BitVec.ofNat 32 (i 0).val
  let arg1 : BitVec 32 := BitVec.ofNat 32 (i 1).val
  let c0_i32 : BitVec 32 := 0#32
  ![arg1.toNat]

def cc1_transform_2 (i : grid1.Coords) : Fin 1 → Nat :=
  let arg0 : BitVec 32 := BitVec.ofNat 32 (i 0).val
  let arg1 : BitVec 32 := BitVec.ofNat 32 (i 1).val
  let c0_i32 : BitVec 32 := 0#32
  ![arg0.toNat]

abbrev stage1_0 : Fin 2 → Memref sig .tc .vmem S1024 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

class Facts₀ : Prop where
  slices_S50000x128_S50000x1_0_0 : S50000x128.Slices ![0, 0] S50000x1
  shapeCasts_S50000x1_S50000 : S50000x1.ShapeCasts S50000
  pads_S50000_S50176_01760 : S50000.Pads (![0] : Fin 1 → Nat) ![176] ![0] S50176
  h_S_ : 0 < S_.numel
  pads_S800000_S800768_07680 : S800000.Pads (![0] : Fin 1 → Nat) ![768] ![0] S800768
  inb_S1024_S1024_0 : ∀ a, (![0] : Fin 1 → Nat) a + S1024.size a ≤ S1024.size a
  h_S1024 : 0 < S1024.numel
  shapeCasts_S1024_S1024 : S1024.ShapeCasts S1024
  shapeCasts_S1024_S1024x1 : S1024.ShapeCasts S1024x1
  iota_S1x1024_d1_w32 : S1x1024.Iotas .tc 32 [1]
  shapeCasts_S1024_S1x1024 : S1024.ShapeCasts S1x1024
  broadcasts_S1024x1_S1024x1024 : S1024x1.Broadcasts S1024x1024
  broadcasts_S1x1024_S1024x1024 : S1x1024.Broadcasts S1024x1024
  shapeCasts_S1x1024_S1x1024 : S1x1024.ShapeCasts S1x1024
  reduces_S1024x1024_S1024 : S1024x1024.Reduces [1] S1024
  shapeCasts_S1024x1_S1024x1 : S1024x1.ShapeCasts S1024x1
  reduces_S1024x1024_S1024_2 : S1024x1024.Reduces [0] S1024
  bcast_S_S50176 : S_.BroadcastsInDim S50176 (![] : Fin 0 → Fin S50176.rank)
  reducesTo_S50176_S_d0 : S50176.ReducesTo [0] S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024.size a ≤ S800768.size a
  hwx0_0 : ∀ i : grid0.Coords, EltTy.bits .i32 = 32 ∨ (Rect.block (s := S800768) S1024.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024.size a ≤ S800768.size a
  hwx0_1 : ∀ i : grid0.Coords, EltTy.bits .f32 = 32 ∨ (Rect.block (s := S800768) S1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024.size a ≤ S50176.size a
  hwx0_2 : ∀ i : grid0.Coords, EltTy.bits .f32 = 32 ∨ (Rect.block (s := S50176) S1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024.size a ≤ S800768.size a
  hwx0_3 : ∀ i : grid0.Coords, EltTy.bits .f32 = 32 ∨ (Rect.block (s := S800768) S1024.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024.size a ≤ S800768.size a
  hwx1_0 : ∀ i : grid1.Coords, EltTy.bits .i32 = 32 ∨ (Rect.block (s := S800768) S1024.size (cc1_transform_0 i) (hinb1_0 i)).WholeWords (EltTy.packing .i32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024.size a ≤ S800768.size a
  hwx1_1 : ∀ i : grid1.Coords, EltTy.bits .f32 = 32 ∨ (Rect.block (s := S800768) S1024.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024.size a ≤ S50176.size a
  hwx1_2 : ∀ i : grid1.Coords, EltTy.bits .f32 = 32 ∨ (Rect.block (s := S50176) S1024.size (cc1_transform_2 i) (hinb1_2 i)).WholeWords (EltTy.packing .f32)

variable [Facts₀]

abbrev win0_0 : Pipeline.Window sig grid0 :=
  Pipeline.Window.ofSpec (Memref.whole main_v5) S1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v6) S1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v4) S1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v6) S1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v7) S1024.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S50000x128 : Shape := ⟨2, ![50000, 128]⟩
abbrev S800000 : Shape := ⟨1, ![800000]⟩
abbrev S800000x1 : Shape := ⟨2, ![800000, 1]⟩
abbrev S_ : Shape := ⟨0, ![]⟩
abbrev S800000x128 : Shape := ⟨2, ![800000, 128]⟩
abbrev S50000x1 : Shape := ⟨2, ![50000, 1]⟩
abbrev S50000 : Shape := ⟨1, ![50000]⟩

abbrev nBuf : Space → Nat
  | .hbm => 33
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S800000, .f32⟩
  | .hbm, ⟨2, _⟩ => ⟨S800000, .i32⟩
  | .hbm, ⟨3, _⟩ => ⟨S800000, .i32⟩
  | .hbm, ⟨4, _⟩ => ⟨S800000x1, .f32⟩
  | .hbm, ⟨5, _⟩ => ⟨S_, .i32⟩
  | .hbm, ⟨6, _⟩ => ⟨S800000, .i32⟩
  | .hbm, ⟨7, _⟩ => ⟨S800000, .i1⟩
  | .hbm, ⟨8, _⟩ => ⟨S_, .i32⟩
  | .hbm, ⟨9, _⟩ => ⟨S800000, .i32⟩
  | .hbm, ⟨10, _⟩ => ⟨S800000, .i32⟩
  | .hbm, ⟨11, _⟩ => ⟨S800000, .i32⟩
  | .hbm, ⟨12, _⟩ => ⟨S800000x1, .i32⟩
  | .hbm, ⟨13, _⟩ => ⟨S800000x128, .f32⟩
  | .hbm, ⟨14, _⟩ => ⟨S800000x128, .f32⟩
  | .hbm, ⟨15, _⟩ => ⟨S800000x128, .f32⟩
  | .hbm, ⟨16, _⟩ => ⟨S_, .f32⟩
  | .hbm, ⟨17, _⟩ => ⟨S50000x128, .f32⟩
  | .hbm, ⟨18, _⟩ => ⟨S800000x1, .i32⟩
  | .hbm, ⟨19, _⟩ => ⟨S50000x128, .f32⟩
  | .hbm, ⟨20, _⟩ => ⟨S_, .f32⟩
  | .hbm, ⟨21, _⟩ => ⟨S50000x128, .f32⟩
  | .hbm, ⟨22, _⟩ => ⟨S50000x128, .f32⟩
  | .hbm, ⟨23, _⟩ => ⟨S50000x1, .f32⟩
  | .hbm, ⟨24, _⟩ => ⟨S50000, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_call0_cst : Ref sig .tc := ⟨.hbm, 20, rfl⟩
abbrev main_call0_v0 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_1 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_2 : Ref sig .tc := ⟨.hbm, 29, rfl⟩
abbrev main_v19 : Ref sig .tc := ⟨.hbm, 30, rfl⟩
abbrev main_cst_3 : Ref sig .tc := ⟨.hbm, 31, rfl⟩
abbrev main_v20 : Ref sig .tc := ⟨.hbm, 32, rfl⟩

abbrev nD : Nat := 1
abbrev τ : Topo := Topo.v7x

variable {F : FTy → Type} [FloatOps F]

class Facts₀ : Prop where
  bcast_S800000_S800000x1_0 : S800000.BroadcastsInDim S800000x1 (![0] : Fin 1 → Fin S800000x1.rank)
  bcast_S_S800000 : S_.BroadcastsInDim S800000 (![] : Fin 0 → Fin S800000.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  slices_S50000x128_S50000x1_0_0 : S50000x128.Slices ![0, 0] S50000x1
  shapeCasts_S50000x1_S50000 : S50000x1.ShapeCasts S50000
  reducesTo_S50000_S_d0 : S50000.ReducesTo [0] S_
  h_S_ : 0 < S_.numel
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf

class Facts : Prop extends Facts₀ where

variable [Facts]
-- ==== Proof.EdgeSum.lean ====
/-
  Messages along the edges of a weighted graph, summed per node.

  Edge e goes from node col e to node row e with weight w e, and carries the first feature of its source node times
  its weight; a node's value is the sum of the messages of the edges that end in it; the result sums the positive
  parts of the node values. One side works on the edges and nodes as given (800000 edges, 50000 nodes, the node
  index read straight off the [50000, 128] feature table), the other on zero-padded copies (800768 edges, 50176
  nodes, the first feature column cut out first), where a padded edge has weight zero and so carries nothing and a
  padded node is named by no edge and so holds zero. Here both are stated index by index over the extended reals,
  and the two sums of positive parts are shown equal when every edge's endpoints are nodes of the graph. Sums over
  the extended reals may be taken in any order, and x * 0 = 0 for every extended real, so no finiteness is used.
-/
import Idealize.ShloMosaic.Lib.ValueIdx
import Idealize.ShloMosaic.PureOps.Ideal.Laws

noncomputable section

open scoped BigOperators

namespace Cert.EdgeSum

open Idealize.ShloMosaic Idealize.ShloMosaic.ValueIdx

/-- The padded edge list, the padded node list, the edge list and the feature table. -/
abbrev SEp : Shape := ⟨1, ![800768]⟩
abbrev SNp : Shape := ⟨1, ![50176]⟩
abbrev SE : Shape := ⟨1, ![800000]⟩
abbrev SL : Shape := ⟨2, ![50000, 128]⟩
abbrev S0 : Shape := ⟨0, ![]⟩

/-- The logistic function of a rank-zero value as both programs spell it on the host: 1 / (1 + exp (-s)). -/
def logistic (s : FVec Ideal S0 .f32) : FVec Ideal S0 .f32 :=
  Host.divf (constant (F := Ideal) S0 .f32 0x3F800000#32)
    (addf (constant (F := Ideal) S0 .f32 0x3F800000#32) (Host.exp (Host.negf s)))

/-- The message of padded edge E: the value of the padded node its source word names (nothing when the word names
    none), times its weight. -/
def msg (colp : SEp.Idx → BitVec 32) (wp : SEp.Idx → EReal) (vp : SNp.Idx → EReal) : SEp.Idx → EReal :=
  fun E => (if h : (colp E).toNat < 50176 then vp (ix1 ⟨(colp E).toNat, h⟩) else 0) * wp E

/-- The value of padded node N: the sum of the messages of the padded edges whose target word names it. -/
def nodeSum (rowp : SEp.Idx → BitVec 32) (ms : SEp.Idx → EReal) : SNp.Idx → EReal :=
  fun N => ∑ E : Fin 800768, if (rowp (ix1 E)).toNat = (N 0).val then ms (ix1 E) else 0

/-- The value of node I on the unpadded side: the sum, over the edges whose target is I, of the weight times the
    first feature of the source node. -/
def refNode (row col : SE.Idx → BitVec 32) (w : SE.Idx → EReal) (L : SL.Idx → EReal) (I : Fin 50000) : EReal :=
  ∑ E : Fin 800000, if (row (ix1 E)).toNat = I.val then
    w (ix1 E) * (if h : (col (ix1 E)).toNat < 50000 then L (ix2 ⟨(col (ix1 E)).toNat, h⟩ (0 : Fin 128)) else 0) else 0

/-- A sum over the first a + b naturals whose terms from a on vanish is the sum over the first a. -/
theorem sum_fin_pad {a b : ℕ} (f : Fin (a + b) → EReal) (hz : ∀ i : Fin (a + b), a ≤ i.val → f i = 0) :
    ∑ i, f i = ∑ i : Fin a, f (Fin.castAdd b i) := by
  rw [Fin.sum_univ_add, Finset.sum_eq_zero (fun i _ => hz (Fin.natAdd a i) (by rw [Fin.coe_natAdd]; exact Nat.le_add_right _ _)),
    add_zero]

section Bridge

variable (row col : SE.Idx → BitVec 32) (w : SE.Idx → EReal) (L : SL.Idx → EReal)
  (rowp colp : SEp.Idx → BitVec 32) (wp : SEp.Idx → EReal) (vp : SNp.Idx → EReal)
  (hrow : ∀ E : Fin 800000, (row (ix1 E)).toNat < 50000)
  (hcol : ∀ E : Fin 800000, (col (ix1 E)).toNat < 50000)
  (hrowp : ∀ E : Fin 800768, rowp (ix1 E) = if h : E.val < 800000 then row (ix1 ⟨E.val, h⟩) else 0#32)
  (hcolp : ∀ E : Fin 800768, colp (ix1 E) = if h : E.val < 800000 then col (ix1 ⟨E.val, h⟩) else 0#32)
  (hwp : ∀ E : Fin 800768, wp (ix1 E) = if h : E.val < 800000 then w (ix1 ⟨E.val, h⟩) else 0)
  (hvp : ∀ N : Fin 50176, vp (ix1 N) = if h : N.val < 50000 then L (ix2 ⟨N.val, h⟩ (0 : Fin 128)) else 0)

include hcol hcolp hwp hvp in
/-- A real edge's message is the first feature of its source node times its weight; a padded edge's is zero. -/
theorem msg_apply (E : Fin 800768) :
    msg colp wp vp (ix1 E) = if h : E.val < 800000 then
      L (ix2 ⟨(col (ix1 ⟨E.val, h⟩)).toNat, hcol ⟨E.val, h⟩⟩ (0 : Fin 128)) * w (ix1 ⟨E.val, h⟩) else 0 := by
  unfold msg
  by_cases h : E.val < 800000
  · have ec : colp (ix1 E) = col (ix1 ⟨E.val, h⟩) := by rw [hcolp E, dif_pos h]
    have hc := hcol ⟨E.val, h⟩
    have hc' : (col (ix1 ⟨E.val, h⟩)).toNat < 50176 := by omega
    rw [dif_pos h, hwp E, dif_pos h, ec, dif_pos hc', hvp ⟨_, hc'⟩, dif_pos hc]
  · rw [dif_neg h, hwp E, dif_neg h, mul_zero]

include hrow hcol hrowp hcolp hwp hvp in
/-- A padded node's value is the sum over the REAL edges whose target is it of the message. -/
theorem nodeSum_apply (N : Fin 50176) :
    nodeSum rowp (msg colp wp vp) (ix1 N) = ∑ E : Fin 800000, if (row (ix1 E)).toNat = N.val then
      L (ix2 ⟨(col (ix1 E)).toNat, hcol E⟩ (0 : Fin 128)) * w (ix1 E) else 0 := by
  unfold nodeSum
  have hz : ∀ i : Fin (800000 + 768), 800000 ≤ i.val →
      (if (rowp (ix1 (i : Fin 800768))).toNat = N.val then msg colp wp vp (ix1 (i : Fin 800768)) else 0) = 0 := by
    intro i hi
    rw [msg_apply col w L colp wp vp hcol hcolp hwp hvp i, dif_neg (by omega)]
    split <;> rfl
  refine (sum_fin_pad (a := 800000) (b := 768) _ hz).trans (Finset.sum_congr rfl fun E _ => ?_)
  have hE : (Fin.castAdd 768 E).val < 800000 := E.isLt
  have eE : (⟨(Fin.castAdd 768 E).val, hE⟩ : Fin 800000) = E := Fin.ext rfl
  have er : rowp (ix1 (Fin.castAdd 768 E : Fin 800768)) = row (ix1 E) := by
    rw [hrowp (Fin.castAdd 768 E), dif_pos hE, eE]
  rw [er, msg_apply col w L colp wp vp hcol hcolp hwp hvp (Fin.castAdd 768 E), dif_pos hE]
  simp only [eE]

include hrow hcol hrowp hcolp hwp hvp in
/-- THE TWO SIDES AGREE: the positive parts of the padded nodes' values sum to the positive parts of the nodes'. -/
theorem sum_pos_eq :
    ∑ N : Fin 50176, max (nodeSum rowp (msg colp wp vp) (ix1 N)) 0 = ∑ I : Fin 50000, max (refNode row col w L I) 0 := by
  have hz : ∀ i : Fin (50000 + 176), 50000 ≤ i.val →
      max (nodeSum rowp (msg colp wp vp) (ix1 (i : Fin 50176))) 0 = 0 := by
    intro i hi
    rw [nodeSum_apply row col w L rowp colp wp vp hrow hcol hrowp hcolp hwp hvp i,
      Finset.sum_eq_zero (fun E _ => if_neg (by have := hrow E; omega)), max_self]
  refine (sum_fin_pad (a := 50000) (b := 176) _ hz).trans (Finset.sum_congr rfl fun I _ => ?_)
  rw [nodeSum_apply row col w L rowp colp wp vp hrow hcol hrowp hcolp hwp hvp (Fin.castAdd 176 I)]
  unfold refNode
  refine congrArg (max · 0) (Finset.sum_congr rfl fun E _ => ?_)
  rw [dif_pos (hcol E), mul_comm]
  rfl

end Bridge

end Cert.EdgeSum

end
-- ==== Proof.PreDecode.lean ====
/-
  The precondition, read: every edge's endpoints are nodes of the graph.
-/
import proofs.«426111_j39127152066908_1_alg».proof.Pre_finite_inputs
import Idealize.ShloMosaic.Lib.ValueIdx
import Idealize.ShloMosaic.Lib.ReduceAll
import Idealize.ShloMosaic.Lib.StableHlo.Predicate

set_option maxRecDepth 16384

noncomputable section

open Idealize.ShloMosaic Idealize.ShloMosaic.ValueIdx

namespace Cert.Pre_finite_inputs.Decode

open Cert.Pre_finite_inputs

variable {F : FTy → Type} [FloatOps F] [Facts]

/-- The scalar shape has exactly one index (the empty one). -/
private instance scalarIdx : Subsingleton S_.Idx := ⟨fun a b => funext fun d => d.elim0⟩

/-- A word that tests at least 0 and below 50000 as a signed number is below 50000 as a natural number:
    being nonnegative, its top bit is clear, so its signed and unsigned readings agree. -/
private theorem toNat_lt (w : BitVec 32) (h0 : IntOp.cmpi .sge w 0#32 = 1#1)
    (h1 : IntOp.cmpi .slt w 50000#32 = 1#1) : w.toNat < 50000 := by
  rw [IntOp.cmpi_sge, show (0#32 : BitVec 32).toInt = 0 from by decide, BitVec.toInt_pos_iff] at h0
  rw [IntOp.cmpi_slt, show (50000#32 : BitVec 32).toInt = 50000 from by decide,
    BitVec.toInt_eq_toNat_of_lt h0] at h1
  omega

/-- The conjunction of two scalar truth values, read at its one index. -/
private theorem and_ix0 (x y : IVec S_ 1) : andi x y ix0 = 1#1 ↔ x ix0 = 1#1 ∧ y ix0 = 1#1 :=
  IntOp.andi_eq_one

/-- One all-reduced range test, read at an edge: if the conjunction over all edges of
    "0 ≤ a E < 50000" is true, the word at each edge is below 50000. -/
private theorem range_of_all (a : IVec S800000 32) (init : IVec S_ 1)
    (e : Host.reduce IntOp.andi
        (andi (cmpi .sge a (broadcastInDim S800000 ![] Facts.bcast_S_S800000 (constantI S_ 32 0#32)))
          (cmpi .slt a (broadcastInDim S800000 ![] Facts.bcast_S_S800000 (constantI S_ 32 50000#32))))
        init Facts.reducesTo_S800000_S_d0 Facts.h_S_ ix0 = 1#1)
    (E : Fin 800000) : (a (ix1 E)).toNat < 50000 := by
  have hE := Host.reduce_andi_all _ _ _ _ ix0 e (ix1 E)
  have hE' : IntOp.andi (IntOp.cmpi .sge (a (ix1 E)) 0#32) (IntOp.cmpi .slt (a (ix1 E)) 50000#32) = 1#1 := hE
  obtain ⟨h0, h1⟩ := IntOp.andi_eq_one.1 hE'
  exact toNat_lt _ h0 h1

/-- Where the precondition holds, every target word and every source word is a node index: below 50000 as a natural
    number (a word that is at least 0 and below 50000 as a signed number is below 50000 unsigned). -/
theorem ranges (a0 : FVec F S50000x128 .f32) (a1 : FVec F S800000 .f32) (a2 a3 : IVec S800000 32)
    (h : fn (F := F) a0 a1 a2 a3 = fun _ => 1#1) :
    (∀ E : Fin 800000, (a2 (ix1 E)).toNat < 50000) ∧ (∀ E : Fin 800000, (a3 (ix1 E)).toNat < 50000) := by
  have h0 : fn (F := F) a0 a1 a2 a3 ix0 = 1#1 := congrFun h ix0
  dsimp only [fn, fn_part1] at h0
  rw [and_ix0, and_ix0] at h0
  obtain ⟨⟨_, hr⟩, hc⟩ := h0
  exact ⟨range_of_all a2 _ hr, range_of_all a3 _ hc⟩

end Cert.Pre_finite_inputs.Decode

end
-- ==== Proof.LibVector.lean ====
/-
  Vectors (rank one) read at an index given by its coordinate: the host's sum of a vector down to a rank-zero
  value, at the ideal instance, as the initial value plus the sum of the entries; a vector padded at its high end,
  which reads the vector below the old length and the padding value from there on; and the first column of a table,
  cut out as a one-column table and flattened to a vector.
-/
import Idealize.ShloMosaic.Lib.ValueIdx
import Idealize.ShloMosaic.Lib.KernelVsHost
import Idealize.ShloMosaic.Lib.Pipeline.Value
import Idealize.ShloMosaic.PureOps.Ideal.Laws

noncomputable section

open scoped BigOperators

namespace Cert.LibVector

open Idealize.ShloMosaic Idealize.ShloMosaic.ValueIdx

/-- The host's sum of an [n] vector down to a rank-zero value is, at the ideal instance, the initial value plus the sum of
    its entries: the result has no axis, so every entry of the vector reduces to its one index, and the vector's
    indices are the coordinates k below n. -/
theorem hostSum_apply {φ : FTy} {n : ℕ} {u : Shape} (x : FVec Ideal ⟨1, ![n]⟩ φ) (init : u.Idx → Ideal φ)
    (h' : (⟨1, ![n]⟩ : Shape).ReducesTo [0] (⟨0, ![]⟩ : Shape)) (hu : 0 < u.numel) (j : (⟨0, ![]⟩ : Shape).Idx) :
    Host.reduceAdd x init h' hu j = init (Shape.Idx.first hu) + ∑ k : Fin n, x (ix1 k) := by
  show Ideal.hostReduceAdd h' x (init (Shape.Idx.first hu)) j = _
  unfold Ideal.hostReduceAdd
  refine congrArg (init (Shape.Idx.first hu) + ·) ?_
  rw [Finset.filter_true_of_mem (fun i _ => funext fun b => b.elim0)]
  exact (Fintype.sum_equiv ⟨ix1, fun i => i 0, fun _ => rfl, fun i => (eq_ix1 i).symm⟩ _ _ fun _ => rfl).symm

/-- An [n] vector padded with p entries at its high end reads, at E, the vector when E < n and the padding value otherwise. -/
theorem padHigh_apply {α : Type} {n p N : ℕ} {u : Shape} (x : (⟨1, ![n]⟩ : Shape).Idx → α) (v : u.Idx → α)
    (h : (⟨1, ![n]⟩ : Shape).Pads ![0] ![p] ![0] (⟨1, ![N]⟩ : Shape)) (hu : 0 < u.numel) (E : Fin N) :
    pad (⟨1, ![N]⟩ : Shape) ![0] ![p] ![0] x v h hu (ix1 E)
      = if hE : E.val < n then x (ix1 ⟨E.val, hE⟩) else v (Shape.Idx.first hu) := by
  by_cases hE : E.val < n
  · rw [dif_pos hE]
    refine pad_apply_of_inside _ _ _ x v h hu (ix1 E) (ix1 ⟨E.val, hE⟩) fun a => ?_
    match a with
    | ⟨0, _⟩ => show E.val = 0 + E.val * (0 + 1); omega
  · rw [dif_neg hE]
    refine pad_apply_of_not_inside _ _ _ x v h hu (ix1 E) (0 : Fin 1) fun hin => hE ?_
    have h3 : (E.val - 0) / (0 + 1) < n := hin.2.2
    simpa using h3

/-- The first column of an [a, b] table cut out as the [a, 1] table reads, at (r, 0), the table at (r, 0). -/
theorem sliceCol0_apply {α : Type} {a b : ℕ} (x : (⟨2, ![a, b]⟩ : Shape).Idx → α)
    (h : (⟨2, ![a, b]⟩ : Shape).Slices ![0, 0] (⟨2, ![a, 1]⟩ : Shape)) (hb : 0 < b) (r : Fin a) :
    extractStridedSlice (⟨2, ![a, 1]⟩ : Shape) ![0, 0] x h (ix2 r (0 : Fin 1)) = x (ix2 r (⟨0, hb⟩ : Fin b)) :=
  extractStridedSlice_apply _ x h _ _ fun ax => by
    match ax with
    | ⟨0, _⟩ => show r.val = 0 + r.val; omega
    | ⟨1, _⟩ => rfl

/-- An [a, 1] table flattened to the [a] vector reads, at r, the table at (r, 0). -/
theorem shapeCast_a1_a_apply {α : Type} {a : ℕ} (x : (⟨2, ![a, 1]⟩ : Shape).Idx → α)
    (h : (⟨2, ![a, 1]⟩ : Shape).ShapeCasts (⟨1, ![a]⟩ : Shape)) (r : Fin a) :
    shapeCast (⟨1, ![a]⟩ : Shape) x h (ix1 r) = x (ix2 r (0 : Fin 1)) :=
  shapeCast_apply x h _ _ (by
    rw [Shape.rowMajor_val_two, Shape.rowMajor_val_one]
    show r.val * 1 + 0 = r.val
    omega)

end Cert.LibVector

end
-- ==== Proof.HostRead.lean ====
/-
  The host operations around the two calls, read: what each call finds in its operand arrays (the edge words, the
  weights and the first feature column, each zero-padded to a whole number of 1024-lane tiles), how the first call's
  result reaches the second, and the result buffer as the logistic function of the sum of the positive parts of the
  second call's result array.
-/
import proofs.«426111_j39127152066908_1_alg».proof.Proof.Gen.KernelIdeal.Frame
import proofs.«426111_j39127152066908_1_alg».proof.Proof.EdgeSum
import proofs.«426111_j39127152066908_1_alg».proof.Proof.LibVector
import Idealize.ShloMosaic.Lib.Pipeline.Value
import Idealize.ShloMosaic.Lib.StableHlo.Run

set_option maxRecDepth 16384

noncomputable section

open scoped BigOperators
open Idealize.ShloMosaic Idealize.ShloMosaic.TcCoe Idealize.SL.Sem Idealize.ShloMosaic.ValueIdx

namespace Cert.KernelIdeal.HostRead

open Cert.KernelIdeal Cert.KernelIdeal.Gen Idealize.ShloMosaic.StableHlo

variable (m : (ℓ : Loc nD τ sig) → Buf (Elt Ideal) ℓ) (ρ : Dev nD → PrngReg)

/-! ## The operand arrays of the first call, as terms of the launch memory -/

/-- The source words, padded with the zero word. -/
theorem colp_term (c : Dev nD) : V8 m ρ c main_v5
    = pad S800768 ![0] ![768] ![0] (m ((c : Thread nD τ).loc main_arg3)) (constantI S_ 32 0#32) pads_S800000_S800768_07680 h_S_ := by
  show StableHlo.after hostOps0_7 (StableHlo.after hostOps0_6 (StableHlo.after hostOps0_5 (StableHlo.after hostOps0_4
    (StableHlo.after hostOps0_3 (StableHlo.after hostOps0_2 (StableHlo.after hostOps0_1 (StableHlo.after hostOps0
      (W0 m ρ c)))))))) (Proc.devRef .tc main_v5) = _
  dsimp only [hostOps0, hostOps0_1, hostOps0_2, hostOps0_3, hostOps0_4, hostOps0_5, hostOps0_6, hostOps0_7]
  after_results
  rfl

/-- The target words, padded with the zero word. -/
theorem rowp_term (c : Dev nD) : V8 m ρ c main_v4
    = pad S800768 ![0] ![768] ![0] (m ((c : Thread nD τ).loc main_arg2)) (constantI S_ 32 0#32) pads_S800000_S800768_07680 h_S_ := by
  show StableHlo.after hostOps0_7 (StableHlo.after hostOps0_6 (StableHlo.after hostOps0_5 (StableHlo.after hostOps0_4
    (StableHlo.after hostOps0_3 (StableHlo.after hostOps0_2 (StableHlo.after hostOps0_1 (StableHlo.after hostOps0
      (W0 m ρ c)))))))) (Proc.devRef .tc main_v4) = _
  dsimp only [hostOps0, hostOps0_1, hostOps0_2, hostOps0_3, hostOps0_4, hostOps0_5, hostOps0_6, hostOps0_7]
  after_results
  rfl

/-- The weights, padded with the zero word converted to a float. -/
theorem wp_term (c : Dev nD) : V8 m ρ c main_v3
    = pad S800768 ![0] ![768] ![0] (m ((c : Thread nD τ).loc main_arg1)) (sitofp (F := Ideal) .f32 (constantI S_ 32 0#32))
        pads_S800000_S800768_07680 h_S_ := by
  show StableHlo.after hostOps0_7 (StableHlo.after hostOps0_6 (StableHlo.after hostOps0_5 (StableHlo.after hostOps0_4
    (StableHlo.after hostOps0_3 (StableHlo.after hostOps0_2 (StableHlo.after hostOps0_1 (StableHlo.after hostOps0
      (W0 m ρ c)))))))) (Proc.devRef .tc main_v3) = _
  dsimp only [hostOps0, hostOps0_1, hostOps0_2, hostOps0_3, hostOps0_4, hostOps0_5, hostOps0_6, hostOps0_7]
  after_results
  rfl

/-- The first feature column, cut out of the table, flattened, and padded likewise. -/
theorem vp_term (c : Dev nD) : V8 m ρ c main_v2
    = pad S50176 ![0] ![176] ![0]
        (shapeCast S50000 (extractStridedSlice S50000x1 ![0, 0] (m ((c : Thread nD τ).loc main_arg0)) slices_S50000x128_S50000x1_0_0)
          shapeCasts_S50000x1_S50000)
        (sitofp (F := Ideal) .f32 (constantI S_ 32 0#32)) pads_S50000_S50176_01760 h_S_ := by
  show StableHlo.after hostOps0_7 (StableHlo.after hostOps0_6 (StableHlo.after hostOps0_5 (StableHlo.after hostOps0_4
    (StableHlo.after hostOps0_3 (StableHlo.after hostOps0_2 (StableHlo.after hostOps0_1 (StableHlo.after hostOps0
      (W0 m ρ c)))))))) (Proc.devRef .tc main_v2) = _
  dsimp only [hostOps0, hostOps0_1, hostOps0_2, hostOps0_3, hostOps0_4, hostOps0_5, hostOps0_6, hostOps0_7]
  after_results
  rfl

/-! ## The same, index by index -/

/-- The zero word converted to a float is the real zero. -/
theorem zeroF : sitofp (F := Ideal) .f32 (constantI S_ 32 0#32) = fun _ => (0 : EReal) := by
  funext j
  show (((0#32 : BitVec 32).toInt : ℝ) : EReal) = 0
  simp

theorem colp_apply (c : Dev nD) (E : Fin 800768) :
    (V8 m ρ c main_v5 : S800768.Idx → BitVec 32) (ix1 E)
      = if h : E.val < 800000 then (m ((c : Thread nD τ).loc main_arg3) : S800000.Idx → BitVec 32) (ix1 ⟨E.val, h⟩) else 0#32 := by
  rw [colp_term]
  exact Cert.LibVector.padHigh_apply _ _ _ _ E

theorem rowp_apply (c : Dev nD) (E : Fin 800768) :
    (V8 m ρ c main_v4 : S800768.Idx → BitVec 32) (ix1 E)
      = if h : E.val < 800000 then (m ((c : Thread nD τ).loc main_arg2) : S800000.Idx → BitVec 32) (ix1 ⟨E.val, h⟩) else 0#32 := by
  rw [rowp_term]
  exact Cert.LibVector.padHigh_apply _ _ _ _ E

theorem wp_apply (c : Dev nD) (E : Fin 800768) :
    (V8 m ρ c main_v3 : S800768.Idx → EReal) (ix1 E)
      = if h : E.val < 800000 then (m ((c : Thread nD τ).loc main_arg1) : S800000.Idx → EReal) (ix1 ⟨E.val, h⟩) else (0 : EReal) := by
  rw [wp_term, zeroF]
  exact Cert.LibVector.padHigh_apply _ _ _ _ E

theorem vp_apply (c : Dev nD) (N : Fin 50176) :
    (V8 m ρ c main_v2 : S50176.Idx → EReal) (ix1 N)
      = if h : N.val < 50000 then (m ((c : Thread nD τ).loc main_arg0) : S50000x128.Idx → EReal) (ix2 ⟨N.val, h⟩ (0 : Fin 128)) else (0 : EReal) := by
  rw [vp_term, zeroF]
  refine (Cert.LibVector.padHigh_apply _ _ _ _ N).trans ?_
  by_cases h : N.val < 50000
  · rw [dif_pos h, dif_pos h, Cert.LibVector.shapeCast_a1_a_apply, Cert.LibVector.sliceCol0_apply _ _ (by decide)]
    rfl
  · rw [dif_neg h, dif_neg h]

/-! ## From the first call to the second, and the result -/

/-- The second call finds the first call's result array in its message operand, -/
theorem msg_arr (c : Dev nD) : V9 m ρ c main_v6 = (dat0 (V8 m ρ) c).arrAt 3 cfg0.N := W9_arr m ρ c 3

/-- and the padded target words as the first call found them. -/
theorem rowp_kept (c : Dev nD) : V9 m ρ c main_v4 = V8 m ρ c main_v4 := W9_of_ne m ρ c main_v4 (by decide)

/-- The host tail finds the second call's result array. -/
theorem sums_arr (c : Dev nD) : W10 m ρ c (Proc.devRef .tc main_v7) = (dat1 (V9 m ρ) c).arrAt 2 cfg1.N := W10_arr m ρ c 2

/-- The result buffer at the last boundary, as a term of the second call's result array. -/
theorem result_term (c : Dev nD) : W12 m ρ c (Proc.devRef .tc main_v13)
    = Cert.EdgeSum.logistic (Host.reduceAdd
        (maximumf (W10 m ρ c (Proc.devRef .tc main_v7) : FVec Ideal S50176 .f32)
          (broadcastInDim S50176 ![] bcast_S_S50176 (constant S_ .f32 0x00000000#32)))
        (constant S_ .f32 0x00000000#32) reducesTo_S50176_S_d0 h_S_) := by
  show StableHlo.after hostOps2_1 (StableHlo.after hostOps2 (W10 m ρ c)) (Proc.devRef .tc main_v13) = _
  dsimp only [hostOps2, hostOps2_1]
  after_results
  rfl

/-- The result buffer: the logistic function of the sum of the positive parts of the padded nodes' entries. -/
theorem result_apply (c : Dev nD) : W12 m ρ c (Proc.devRef .tc main_v13)
    = Cert.EdgeSum.logistic (fun _ => ∑ N : Fin 50176,
        max ((W10 m ρ c (Proc.devRef .tc main_v7) : S50176.Idx → EReal) (ix1 N)) 0) := by
  rw [result_term]
  refine congrArg Cert.EdgeSum.logistic (funext fun j => ?_)
  rw [Cert.LibVector.hostSum_apply _ _ _ _ j]
  show Ideal.ofBits .f32 0x00000000#32 + _ = _
  rw [Ideal.ofBits_zero_f32, zero_add]
  refine Finset.sum_congr rfl fun N _ => ?_
  show max _ (Ideal.ofBits .f32 0x00000000#32) = _
  rw [Ideal.ofBits_zero_f32]

end Cert.KernelIdeal.HostRead

end
-- ==== Proof.LibColumn.lean ====
/-
  Column vectors and one-axis reductions of a matrix, read at an index given by coordinates.

  A reduction of an `[a, b]` matrix with `keepdims` goes through three layout steps the library reads only in their
  row forms: the reduced `[a]` vector is cast to the column `[a, 1]`, and the column is broadcast back over
  `[a, b]`. Here those two are read at `(r, c)`, together with the reductions themselves at the ideal instance:
  the sum of a matrix along its columns or its rows as a `Fin`-indexed sum over `ix2`, and the maximum along the
  columns as the fold of `max` over the row — for the vector unit's reduction and for the host's alike.
-/
import Idealize.ShloMosaic.Lib.Pipeline.Value
import Idealize.ShloMosaic.Lib.ValueIdx
import Idealize.ShloMosaic.PureOps.Ideal.Laws

noncomputable section

open scoped BigOperators

namespace Cert.LibColumn

open Idealize.ShloMosaic Idealize.ShloMosaic.ValueIdx

/-! ## The layout steps of a keepdims reduction -/

section Layout
variable {α : Type}

/-- An `[a]` vector cast to the column `[a, 1]` reads, at `(r, u)`, the vector at `r`. -/
theorem shapeCast_a_a1_apply {a : ℕ} (x : (⟨1, ![a]⟩ : Shape).Idx → α) (h : (⟨1, ![a]⟩ : Shape).ShapeCasts ⟨2, ![a, 1]⟩)
    (r : Fin a) (u : Fin 1) : shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

/-- A column `[a, 1]` broadcast over `[a, b]` reads, at `(r, c)`, the column's entry of row `r`. -/
theorem broadcastTo_a1_ab_apply {a b : ℕ} (v : (⟨2, ![a, 1]⟩ : Shape).Idx → α)
    (h : (⟨2, ![a, 1]⟩ : Shape).Broadcasts ⟨2, ![a, b]⟩) (r : Fin a) (c : Fin b) :
    broadcastTo ⟨2, ![a, b]⟩ v h (ix2 r c) = v (ix2 r (0 : Fin 1)) := by
  refine broadcastTo_apply v h (ix2 r c) (ix2 r (0 : Fin 1)) fun ax => ?_
  match ax with
  | ⟨0, _⟩ =>
    show r.val = if a = 1 then 0 else r.val
    split
    · have := r.isLt; omega
    · rfl
  | ⟨1, _⟩ => rfl

end Layout

/-! ## Which source index a reduced index and a coordinate name -/

/-- Reducing `[a, b]` along axis 1: over row `r`, coordinate `k` put back is `(r, k)`. -/
theorem lift_axis1 {a b : ℕ} (h : (⟨2, ![a, b]⟩ : Shape).Reduces [1] (⟨1, ![a]⟩ : Shape)) (r : Fin a)
    (k : Fin ((⟨2, ![a, b]⟩ : Shape).size 1)) : h.lift (ix1 r) k = ix2 r (⟨k.val, k.isLt⟩ : Fin b) := by
  funext c; apply Fin.ext
  fin_cases c <;> rfl

/-- Reducing `[a, b]` along axis 0: over column `t`, coordinate `k` put back is `(k, t)`. -/
theorem lift_axis0 {a b : ℕ} (h : (⟨2, ![a, b]⟩ : Shape).Reduces [0] (⟨1, ![b]⟩ : Shape)) (t : Fin b)
    (k : Fin ((⟨2, ![a, b]⟩ : Shape).size 0)) : h.lift (ix1 t) k = ix2 (⟨k.val, k.isLt⟩ : Fin a) t := by
  funext c; apply Fin.ext
  fin_cases c <;> rfl

/-! ## The reductions at the ideal instance -/

section Reductions
variable {φ : FTy}

/-- The vector unit's sum of a matrix along its columns is, at row `r`, the sum of that row. -/
theorem sumAxis1_apply {a b : ℕ} (v : FVec Ideal ⟨2, ![a, b]⟩ φ) (acc : BitVec φ.bits)
    (h : (⟨2, ![a, b]⟩ : Shape).Reduces [1] (⟨1, ![a]⟩ : Shape)) (hφ : FKind.Formats φ)
    (hacc : acc = FKind.add.neutral φ hφ) (r : Fin a) :
    multiReduction .add [1] ⟨1, ![a]⟩ v acc h hφ hacc (ix1 r) = ∑ k : Fin b, v (ix2 r k) :=
  (Ideal.multiReduction_add_single v acc h hφ hacc (ix1 r)).trans
    (Finset.sum_congr rfl fun k _ => congrArg v (lift_axis1 h r k))

/-- The vector unit's sum of a matrix along its rows is, at column `t`, the sum of that column. -/
theorem sumAxis0_apply {a b : ℕ} (v : FVec Ideal ⟨2, ![a, b]⟩ φ) (acc : BitVec φ.bits)
    (h : (⟨2, ![a, b]⟩ : Shape).Reduces [0] (⟨1, ![b]⟩ : Shape)) (hφ : FKind.Formats φ)
    (hacc : acc = FKind.add.neutral φ hφ) (t : Fin b) :
    multiReduction .add [0] ⟨1, ![b]⟩ v acc h hφ hacc (ix1 t) = ∑ k : Fin a, v (ix2 k t) :=
  (Ideal.multiReduction_add_single v acc h hφ hacc (ix1 t)).trans
    (Finset.sum_congr rfl fun k _ => congrArg v (lift_axis0 h t k))

/-- The vector unit's maximum of a matrix along its columns is, at row `r`, the fold of `max` over that row from
    the accumulator's value. -/
theorem maxAxis1_apply {a b : ℕ} (v : FVec Ideal ⟨2, ![a, b]⟩ φ) (acc : BitVec φ.bits)
    (h : (⟨2, ![a, b]⟩ : Shape).Reduces [1] (⟨1, ![a]⟩ : Shape)) (hφ : FKind.Formats φ)
    (hacc : acc = FKind.maximumf.neutral φ hφ) (r : Fin a) :
    multiReduction .maximumf [1] ⟨1, ![a]⟩ v acc h hφ hacc (ix1 r)
      = (Finset.univ : Finset (Fin b)).fold max (Ideal.ofBits φ acc) (fun k => v (ix2 r k)) :=
  (Ideal.multiReduction_maximumf_single v acc h hφ hacc (ix1 r)).trans
    (congrArg (fun f => (Finset.univ : Finset (Fin b)).fold max (Ideal.ofBits φ acc) f)
      (funext fun k => congrArg v (lift_axis1 h r k)))

/-- The host's reduce with a maximum body along the columns is, at row `r`, the same fold from the initial value. -/
theorem hostMaxAxis1_apply {a b : ℕ} {u : Shape} (x : FVec Ideal ⟨2, ![a, b]⟩ φ) (init : u.Idx → Ideal φ)
    (h' : (⟨2, ![a, b]⟩ : Shape).ReducesTo [1] (⟨1, ![a]⟩ : Shape))
    (h : (⟨2, ![a, b]⟩ : Shape).Reduces [1] (⟨1, ![a]⟩ : Shape)) (hu : 0 < u.numel) (r : Fin a) :
    Host.reduce FloatOps.maximumf x init h' hu (ix1 r)
      = (Finset.univ : Finset (Fin b)).fold max (init (Shape.Idx.first hu)) (fun k => x (ix2 r k)) :=
  (Host.reduce_eq_fold_single FloatOps.maximumf x init h' h hu (ix1 r)).trans
    (congrArg (fun f => (Finset.univ : Finset (Fin b)).fold max (init (Shape.Idx.first hu)) f)
      (funext fun k => congrArg x (lift_axis1 h r k)))

end Reductions

end Cert.LibColumn

end
-- ==== Proof.GatherLane.lean ====
/-
  The gather call's body, read lane by lane.
-/
import proofs.«426111_j39127152066908_1_alg».proof.Proof.Gen.KernelIdeal.Skeleton
import proofs.«426111_j39127152066908_1_alg».proof.Proof.LibColumn
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.GatherLane

open Cert.KernelIdeal Cert.KernelIdeal.Gen

/-! ## Words: the chunk's node numbers, and the compare-and-select on them -/

/-- Node number `1024 j + n` of chunk `j < 49`, computed in 32-bit words, does not wrap around: a word `c` equals it
    exactly when `c`, read as a natural number, is `1024 j + n`. -/
private theorem word_eq_iff (c : BitVec 32) (j n : ℕ) (hj : j < 49) (hn : n < 1024) :
    c = BitVec.ofNat 32 j * 1024#32 + BitVec.ofNat 32 n ↔ c.toNat = j * 1024 + n := by
  have hval : (BitVec.ofNat 32 j * 1024#32 + BitVec.ofNat 32 n).toNat = j * 1024 + n := by
    rw [BitVec.toNat_add, BitVec.toNat_mul, BitVec.toNat_ofNat, BitVec.toNat_ofNat, BitVec.toNat_ofNat]
    omega
  constructor
  · intro h; rw [h, hval]
  · intro h; exact BitVec.eq_of_toNat_eq (h.trans hval.symm)

/-- A select on the bit of an equality test is the `if` on the equality. -/
private theorem select_cmpi_eq {α : Type} (x y : BitVec 32) (a b : α) :
    Scalar.select (IntOp.cmpi .eq x y) a b = if x = y then a else b := by
  show (if BitVec.ofBool (x == y) = 1#1 then a else b) = if x = y then a else b
  by_cases h : x = y
  · rw [if_pos h, if_pos]
    rw [beq_iff_eq.mpr h]; rfl
  · rw [if_neg h, if_neg]
    rw [beq_eq_false_iff_ne.mpr h]; decide

/-! ## The one-hot row summed -/

/-- A sum over the chunk's 1024 places of "the entry at place `n` if `c = 1024 j + n`, else nothing" is the entry
    at place `c - 1024 j` when `c` lies in the chunk and nothing otherwise. -/
private theorem sum_onehot (f : Fin 1024 → EReal) (c j : ℕ) :
    (∑ n : Fin 1024, if c = j * 1024 + n.val then f n else 0)
      = if h : j * 1024 ≤ c ∧ c < j * 1024 + 1024 then f ⟨c - j * 1024, by omega⟩ else 0 := by
  split
  · rename_i h
    rw [Finset.sum_eq_single (⟨c - j * 1024, by omega⟩ : Fin 1024)]
    · rw [if_pos]; show c = j * 1024 + (c - j * 1024); omega
    · intro n _ hn
      rw [if_neg]
      intro hc
      apply hn
      apply Fin.ext
      show n.val = c - j * 1024
      omega
    · intro hnot; exact absurd (Finset.mem_univ _) hnot
  · rename_i h
    apply Finset.sum_eq_zero
    intro n _
    rw [if_neg]
    intro hc
    have := n.isLt
    exact h ⟨by omega, by omega⟩

/-! ## The compare and the add on words, at an index -/

/-- A comparison of integer vectors at an index compares the words. -/
private theorem cmpi_apply {s : Shape} {w : ℕ} (p : CmpIPredicate) (x y : IVec s w) (i : s.Idx) :
    cmpi p x y i = IntOp.cmpi p (x i) (y i) := rfl

/-- A sum of integer vectors at an index adds the words. -/
private theorem addi_apply {s : Shape} {w : ℕ} (x y : IVec s w) (i : s.Idx) :
    addi x y i = x i + y i := rfl

/-- The lane sum of a 1024 by 1024 matrix along its columns is, at lane `e`, the sum of row `e`. -/
private theorem rowSum_apply (m : FVec Ideal S1024x1024 .f32) (hφ : FKind.Formats FTy.f32)
    (hacc : (0x00000000#32 : BitVec FTy.f32.bits) = FKind.add.neutral FTy.f32 hφ) (e : Fin 1024) :
    multiReduction .add [1] S1024 m 0x00000000#32 reduces_S1024x1024_S1024 hφ hacc (ix1 e)
      = ∑ k : Fin 1024, m (ix2 e k) :=
  Cert.LibColumn.sumAxis1_apply m _ _ hφ hacc e

/-! ## The three payloads at a lane -/

/-- The reset stores zero in every lane. -/
theorem pay1_apply (e : Fin 1024) : k0_pay1 (F := Ideal) (ix1 e) = 0 := by
  unfold k0_pay1
  exact Ideal.ofBits_zero_f32

/-- One node chunk's step, at edge lane e: the running value plus the chunk's entry the edge's source word names, when
    it names one of this chunk's 1024 nodes (chunk j holds nodes 1024 j … 1024 j + 1023), and plus nothing otherwise. -/
theorem pay2_apply (i : grid0.Coords) (col : Vec Ideal S1024 .i32) (v acc : Vec Ideal S1024 .f32) (e : Fin 1024) :
    k0_pay2 (F := Ideal) i col v acc (ix1 e) = acc (ix1 e) +
      (if h : (i 1).val * 1024 ≤ (col (ix1 e)).toNat ∧ (col (ix1 e)).toNat < (i 1).val * 1024 + 1024
        then v (ix1 ⟨(col (ix1 e)).toNat - (i 1).val * 1024, by omega⟩) else 0) := by
  have hj : (i 1).val < 49 := (i 1).isLt
  have hz : (Scalar.ofBits .f32 0x00000000#32 : Ideal .f32) = 0 := Ideal.ofBits_zero_f32
  unfold k0_pay2
  simp only [shapeCast_self]
  -- the running value plus the lane sum of the selected matrix: row `e` summed over the chunk's 1024 places
  rw [addf_apply]
  refine congrArg (acc (ix1 e) + ·) ((rowSum_apply _ _ _ e).trans ?_)
  refine Eq.trans (Finset.sum_congr rfl fun n _ => ?_)
    (sum_onehot (fun n => v (ix1 n)) (col (ix1 e) : BitVec 32).toNat (i 1).val)
  -- entry `(e, n)`: the edge's word against node number `1024 j + n`, choosing the chunk's entry `n` or zero
  rw [select_apply, cmpi_apply, select_cmpi_eq, Cert.LibColumn.broadcastTo_a1_ab_apply,
    Cert.LibColumn.shapeCast_a_a1_apply, broadcastTo_1b_ab_apply, broadcastTo_1b_ab_apply,
    broadcastTo_1b_ab_apply, shapeCast_a_1a_apply, addi_apply, broadcast_apply, broadcast_apply,
    iota_single_apply, hz]
  -- the word equation is the equation of natural numbers: no wrap-around below 49 · 1024 + 1024
  exact if_congr (word_eq_iff (col (ix1 e)) (i 1).val n.val hj n.isLt) rfl rfl

/-- The last step multiplies by the edge's weight. -/
theorem pay3_apply (a w : Vec Ideal S1024 .f32) (e : Fin 1024) :
    k0_pay3 (F := Ideal) a w (ix1 e) = a (ix1 e) * w (ix1 e) := by
  unfold k0_pay3
  simp only [shapeCast_self]
  rfl

end Cert.KernelIdeal.GatherLane

end
-- ==== Proof.GridFacts.lean ====
/-
  The two grids, point by point. The first call's point t is edge tile t / 49 at node chunk t % 49: its source-word,
  weight and result windows sit on block t / 49 of their arrays and its node-value window on block t % 49. The second
  call's point t is node tile t / 782 at edge chunk t % 782: its target-word and message windows sit on block t % 782
  and its result window on block t / 782. A point's coordinates are its number divided by the product of the later
  axes' bounds, modulo the axis's bound; an index map returns a grid coordinate as a 32-bit word read back, which is
  the coordinate since it is small.
-/
import proofs.«426111_j39127152066908_1_alg».proof.Proof.Gen.KernelIdeal.Launch

noncomputable section

namespace Cert.KernelIdeal.GridFacts

open Cert.KernelIdeal Cert.KernelIdeal.Gen Idealize.ShloMosaic

/-- A small number written as a 32-bit word and read back is itself. -/
theorem toNat_ofNat_small (n : ℕ) (h : n < 1000000) : (BitVec.ofNat 32 n).toNat = n := by
  rw [BitVec.toNat_ofNat]
  exact Nat.mod_eq_of_lt (Nat.lt_of_lt_of_le h (by decide))

theorem gather_coords (t : Fin cfg0.N) : (grid0.coords t 0).val = t.val / 49 ∧ (grid0.coords t 1).val = t.val % 49 := by
  have hN : t.val < 38318 := lt_of_lt_of_eq t.isLt (show cfg0.N = 38318 from N_0)
  refine ⟨?_, ?_⟩
  · show t.val / grid0.stride 0 % 782 = t.val / 49
    rw [show grid0.stride 0 = 49 from by decide]; omega
  · show t.val / grid0.stride 1 % 49 = t.val % 49
    rw [show grid0.stride 1 = 1 from by decide]; omega

theorem gather_index (t : Fin cfg0.N) :
    (cfg0.win 0).index t 0 = t.val / 49 ∧ (cfg0.win 1).index t 0 = t.val / 49
    ∧ (cfg0.win 2).index t 0 = t.val % 49 ∧ (cfg0.win 3).index t 0 = t.val / 49 := by
  obtain ⟨h0, h1⟩ := gather_coords t
  have hN : t.val < 38318 := lt_of_lt_of_eq t.isLt (show cfg0.N = 38318 from N_0)
  refine ⟨?_, ?_, ?_, ?_⟩
  · show (BitVec.ofNat 32 (grid0.coords t 0).val).toNat = _
    rw [h0, toNat_ofNat_small _ (by omega)]
  · show (BitVec.ofNat 32 (grid0.coords t 0).val).toNat = _
    rw [h0, toNat_ofNat_small _ (by omega)]
  · show (BitVec.ofNat 32 (grid0.coords t 1).val).toNat = _
    rw [h1, toNat_ofNat_small _ (by omega)]
  · show (BitVec.ofNat 32 (grid0.coords t 0).val).toNat = _
    rw [h0, toNat_ofNat_small _ (by omega)]

theorem scatter_coords (t : Fin cfg1.N) : (grid1.coords t 0).val = t.val / 782 ∧ (grid1.coords t 1).val = t.val % 782 := by
  have hN : t.val < 38318 := lt_of_lt_of_eq t.isLt (show cfg1.N = 38318 from N_1)
  refine ⟨?_, ?_⟩
  · show t.val / grid1.stride 0 % 49 = t.val / 782
    rw [show grid1.stride 0 = 782 from by decide]; omega
  · show t.val / grid1.stride 1 % 782 = t.val % 782
    rw [show grid1.stride 1 = 1 from by decide]; omega

theorem scatter_index (t : Fin cfg1.N) :
    (cfg1.win 0).index t 0 = t.val % 782 ∧ (cfg1.win 1).index t 0 = t.val % 782
    ∧ (cfg1.win 2).index t 0 = t.val / 782 := by
  obtain ⟨h0, h1⟩ := scatter_coords t
  have hN : t.val < 38318 := lt_of_lt_of_eq t.isLt (show cfg1.N = 38318 from N_1)
  refine ⟨?_, ?_, ?_⟩
  · show (BitVec.ofNat 32 (grid1.coords t 1).val).toNat = _
    rw [h1, toNat_ofNat_small _ (by omega)]
  · show (BitVec.ofNat 32 (grid1.coords t 1).val).toNat = _
    rw [h1, toNat_ofNat_small _ (by omega)]
  · show (BitVec.ofNat 32 (grid1.coords t 0).val).toNat = _
    rw [h0, toNat_ofNat_small _ (by omega)]

end Cert.KernelIdeal.GridFacts

end
-- ==== Proof.GatherRegion.lean ====
/-
  The gather call: what its result array holds.

  The call runs over 782 tiles of 1024 padded edges and, inside each tile, over the 49 chunks of 1024 padded nodes:
  point t is edge tile t / 49 at node chunk t % 49, and lane e of tile q belongs to padded edge 1024 q + e. At chunk 0
  the lane's running value is reset to zero; every chunk j then adds the value of the node the edge's source word
  names when that node lies in chunk j (nodes 1024 j … 1024 j + 1023), and nothing otherwise; after chunk 48 the
  running value is multiplied by the edge's weight, and the tile is written back. So after chunk j the running value
  is the named node's value when the word is below 1024 (j + 1) and zero otherwise (one term of the sum at most is
  not zero, and 0 + x = x + 0 = x); after chunk 48 that is the value of the padded node the word names, or zero when
  it names none, and its product with the weight is the edge's message. The 782 write-backs tile the padded edge
  list, so the result array ends holding every padded edge's message.
-/
import proofs.«426111_j39127152066908_1_alg».proof.Proof.Gen.KernelIdeal.Frame
import proofs.«426111_j39127152066908_1_alg».proof.Proof.EdgeSum
import proofs.«426111_j39127152066908_1_alg».proof.Proof.GatherLane
import proofs.«426111_j39127152066908_1_alg».proof.Proof.GridFacts
import Idealize.ShloMosaic.Lib.Pipeline.Value
import Idealize.ShloMosaic.Lib.ValueLayout
import Idealize.ShloMosaic.Lib.Tactic

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.GatherRegion

open Cert.KernelIdeal Cert.KernelIdeal.Gen

open Cert.EdgeSum (SEp SNp msg)

/-! ## One lane's running value -/

/-- The padded edge of lane e in edge tile q (q is below 782 wherever this is used). -/
def edgeIx (q : Nat) (e : Fin 1024) : Fin 800768 := ⟨q % 782 * 1024 + e.val, by omega⟩

/-- The padded node of entry k in node chunk m (m is below 49 wherever this is used). -/
def nodeIx (m : Nat) (k : Fin 1024) : Fin 50176 := ⟨m % 49 * 1024 + k.val, by omega⟩

/-- What the first m node chunks contribute for an edge whose source word is cw: the value of padded node cw when
    that node lies in one of them, and zero otherwise. -/
def part (vp : SNp.Idx → EReal) (cw m : Nat) : EReal :=
  if h : cw < 50176 ∧ cw < m * 1024 then vp (ix1 ⟨cw, h.1⟩) else 0

/-- Before the first chunk nothing has been contributed. -/
theorem part_zero (vp : SNp.Idx → EReal) (cw : Nat) : part vp cw 0 = 0 :=
  dif_neg (by omega)

/-- All 49 chunks hold every padded node. -/
theorem part_full (vp : SNp.Idx → EReal) (cw : Nat) :
    part vp cw 49 = if h : cw < 50176 then vp (ix1 ⟨cw, h⟩) else 0 := by
  unfold part
  by_cases h : cw < 50176
  · rw [dif_pos ⟨h, by omega⟩, dif_pos h]
  · rw [dif_neg (fun h' => h h'.1), dif_neg h]

/-- Chunk m adds the named node's value exactly when the word falls in chunk m: the word is below 1024 m (already
    counted, the chunk adds zero), in chunk m (nothing counted yet, the chunk adds the value), or beyond (zero both
    times). -/
theorem part_step (vp : SNp.Idx → EReal) (cw m : Nat) (hm : m < 49) (v : S1024.Idx → EReal)
    (hv : ∀ k : Fin 1024, v (ix1 k) = vp (ix1 (nodeIx m k))) :
    part vp cw m + (if h : m * 1024 ≤ cw ∧ cw < m * 1024 + 1024 then v (ix1 ⟨cw - m * 1024, by omega⟩) else 0)
      = part vp cw (m + 1) := by
  unfold part
  by_cases h1 : cw < m * 1024
  · rw [dif_pos ⟨by omega, h1⟩, dif_neg (by omega), dif_pos ⟨by omega, by omega⟩, add_zero]
  · by_cases h2 : cw < m * 1024 + 1024
    · rw [dif_neg (by omega), dif_pos ⟨by omega, h2⟩, dif_pos ⟨by omega, by omega⟩, zero_add, hv]
      exact congrArg vp (congrArg ix1 (Fin.ext (by
        show m % 49 * 1024 + (cw - m * 1024) = cw; rw [Nat.mod_eq_of_lt hm]; omega)))
    · rw [dif_neg (by omega), dif_neg (by omega), dif_neg (by omega), add_zero]

/-- A padded edge's message, its source node's value written as what all 49 chunks contribute. -/
theorem msg_eq_part (colp : SEp.Idx → BitVec 32) (wp : SEp.Idx → EReal) (vp : SNp.Idx → EReal) (E : SEp.Idx) :
    msg colp wp vp E = part vp (colp E).toNat 49 * wp E := by
  unfold msg; rw [part_full]

/-- One point's update in lane e: a running value that counts the first m chunks, updated at chunk m with that
    chunk's block of the node values, counts the first m + 1. -/
theorem lane_step (vp : SNp.Idx → EReal) (i : grid0.Coords) (m : Nat) (him : (i 1).val = m) (hm : m < 49)
    (col : Vec Ideal S1024 .i32) (v acc : Vec Ideal S1024 .f32) (e : Fin 1024)
    (hv : ∀ k : Fin 1024, v (ix1 k) = vp (ix1 (nodeIx m k)))
    (hacc : acc (ix1 e) = part vp (col (ix1 e)).toNat m) :
    k0_pay2 (F := Ideal) i col v acc (ix1 e) = part vp (col (ix1 e)).toNat (m + 1) := by
  subst him
  rw [GatherLane.pay2_apply, hacc]
  exact part_step vp _ _ hm v hv

/-- What the result's staging buffer holds in lane e after point n: inside a tile the contribution of the chunks
    passed so far, and after the tile's last chunk the edge's message. -/
def held (colp : SEp.Idx → BitVec 32) (wp : SEp.Idx → EReal) (vp : SNp.Idx → EReal) (n : Nat) (e : Fin 1024) : EReal :=
  if n % 49 = 48 then msg colp wp vp (ix1 (edgeIx (n / 49) e))
  else part vp (colp (ix1 (edgeIx (n / 49) e))).toNat (n % 49 + 1)

/-! ## What each kind of point stores -/

section Pieces

variable {F : FTy → Type} [FloatOps F]

theorem hz : (![0] : Fin 1 → Nat) = fun _ => 0 := funext fun a => by fin_cases a; rfl

/-- A tile's first chunk: the running value is reset, then updated from the reset value. -/
theorem out_A (c : Dev nD) (i : grid0.Coords) (a2 : Memref sig .tc .vmem S1024 .i32) (h2 : a2.IsWhole)
    (a3 : Memref sig .tc .vmem S1024 .f32) (h3 : a3.IsWhole) (a4 : Memref sig .tc .vmem S1024 .f32) (h4 : a4.IsWhole)
    (a5 : Memref sig .tc .vmem S1024 .f32) (h5 : a5.IsWhole) (hc0 : cond0_0 i) (hc1 : ¬cond0_1 i)
    (x0 : Vec F S1024 .i32) (x1 x2 : Vec F S1024 .f32) :
    out0_A_3 c i a2 h2 a3 h3 a4 h4 a5 h5 hc0 hc1 x0 x1 x2 = k0_pay2 i x0 x2 (k0_pay1 (F := F)) := by
  unfold out0_A_3
  rw [View.read_writes_eq_canon _ _ _ (cover0_A_3 c i a2 h2 a3 h3 a4 h4 a5 h5 hc0 hc1 x0 x1 x2)]
  unfold kernelRun0_A
  dsimp only
  sl_unfold_words
  rw [View.canon_cons_unit_zero (S := S1024) hz, View.readCov_unit_zero (S := S1024) _ hz]
  simp only [View.readAt_eq_ld, h2.read_unread, h4.read_unread, View.ld_unit_zero (S := S1024) hz, shapeCast_self]

/-- A chunk strictly inside a tile: the running value the chunk before left is updated. -/
theorem out_B (c : Dev nD) (i : grid0.Coords) (a2 : Memref sig .tc .vmem S1024 .i32) (h2 : a2.IsWhole)
    (a3 : Memref sig .tc .vmem S1024 .f32) (h3 : a3.IsWhole) (a4 : Memref sig .tc .vmem S1024 .f32) (h4 : a4.IsWhole)
    (a5 : Memref sig .tc .vmem S1024 .f32) (h5 : a5.IsWhole) (hc0 : ¬cond0_0 i) (hc1 : ¬cond0_1 i)
    (x0 : Vec F S1024 .i32) (x1 x2 xo : Vec F S1024 .f32) :
    out0_B_3 c i a2 h2 a3 h3 a4 h4 a5 h5 hc0 hc1 x0 x1 x2 xo = k0_pay2 i x0 x2 xo := by
  unfold out0_B_3
  rw [View.read_writes_eq_canon _ _ _ (cover0_B_3 c i a2 h2 a3 h3 a4 h4 a5 h5 hc0 hc1 x0 x1 x2 xo)]
  unfold kernelRun0_B
  dsimp only
  sl_unfold_words
  rw [View.canon_unit_zero hz]
  simp only [View.readAt_eq_ld, h2.read_unread, h4.read_unread, h5.read_unread, View.ld_unit_zero (S := S1024) hz,
    shapeCast_self]

/-- A tile's last chunk: the running value is updated, then multiplied by the weights. -/
theorem out_C (c : Dev nD) (i : grid0.Coords) (a2 : Memref sig .tc .vmem S1024 .i32) (h2 : a2.IsWhole)
    (a3 : Memref sig .tc .vmem S1024 .f32) (h3 : a3.IsWhole) (a4 : Memref sig .tc .vmem S1024 .f32) (h4 : a4.IsWhole)
    (a5 : Memref sig .tc .vmem S1024 .f32) (h5 : a5.IsWhole) (hc0 : ¬cond0_0 i) (hc1 : cond0_1 i)
    (x0 : Vec F S1024 .i32) (x1 x2 xo : Vec F S1024 .f32) :
    out0_C_3 c i a2 h2 a3 h3 a4 h4 a5 h5 hc0 hc1 x0 x1 x2 xo = k0_pay3 (k0_pay2 i x0 x2 xo) x1 := by
  unfold out0_C_3
  rw [View.read_writes_eq_canon _ _ _ (cover0_C_3 c i a2 h2 a3 h3 a4 h4 a5 h5 hc0 hc1 x0 x1 x2 xo)]
  unfold kernelRun0_C
  dsimp only
  sl_unfold_words
  rw [View.canon_cons_unit_zero (S := S1024) hz, View.readCov_unit_zero (S := S1024) _ hz]
  simp only [View.readAt_eq_ld, h2.read_unread, h3.read_unread, h4.read_unread, h5.read_unread,
    View.ld_unit_zero (S := S1024) hz, shapeCast_self]

end Pieces

/-! ## Where a point's blocks sit -/

theorem idx0 (t : Fin cfg0.N) : win0_0.index t (0 : Fin 1) = t.val / 49 := (GridFacts.gather_index t).1
theorem idx1 (t : Fin cfg0.N) : win0_1.index t (0 : Fin 1) = t.val / 49 := (GridFacts.gather_index t).2.1
theorem idx2 (t : Fin cfg0.N) : win0_2.index t (0 : Fin 1) = t.val % 49 := (GridFacts.gather_index t).2.2.1
theorem idx3 (t : Fin cfg0.N) : win0_3.index t (0 : Fin 1) = t.val / 49 := (GridFacts.gather_index t).2.2.2
theorem coords1 (t : Fin cfg0.N) : (grid0.coords t 1).val = t.val % 49 := (GridFacts.gather_coords t).2

variable (V : (c : Dev nD) → (b : Ref sig .tc) → Buf (Elt Ideal) ((c : Thread nD τ).loc b))

/-- The three arrays the call reads, as the call finds them: the padded source words, weights and node values. -/
abbrev colp (c : Dev nD) : SEp.Idx → BitVec 32 := V c main_v5
abbrev wp (c : Dev nD) : SEp.Idx → EReal := V c main_v3
abbrev vp (c : Dev nD) : SNp.Idx → EReal := V c main_v2

/-- Their blocks at point t. -/
abbrev colB (c : Dev nD) (t : Fin cfg0.N) : Vec Ideal S1024 .i32 := iblk0 V c 0 t
abbrev wB (c : Dev nD) (t : Fin cfg0.N) : Vec Ideal S1024 .f32 := iblk0 V c 1 t
abbrev vB (c : Dev nD) (t : Fin cfg0.N) : Vec Ideal S1024 .f32 := iblk0 V c 2 t

/-- Lane e of the source-word block at point t is the word of padded edge 1024 (t / 49) + e. -/
theorem colB_apply (c : Dev nD) (t : Fin cfg0.N) (e : Fin 1024) :
    colB V c t (ix1 e) = colp V c (ix1 (edgeIx (t.val / 49) e)) := by
  have hN : t.val < 38318 := lt_of_lt_of_eq t.isLt (show cfg0.N = 38318 from N_0)
  show V c main_v5 (((cfg0.win 0).blk t).view.emb (ix1 e)) = V c main_v5 (ix1 (edgeIx (t.val / 49) e))
  refine congrArg _ (funext fun a => Fin.ext ?_)
  match a with
  | ⟨0, _⟩ =>
    show win0_0.index t 0 * 1024 + 1 * e.val = t.val / 49 % 782 * 1024 + e.val
    rw [idx0 t]; omega

/-- Lane e of the weight block at point t is the weight of padded edge 1024 (t / 49) + e. -/
theorem wB_apply (c : Dev nD) (t : Fin cfg0.N) (e : Fin 1024) :
    wB V c t (ix1 e) = wp V c (ix1 (edgeIx (t.val / 49) e)) := by
  have hN : t.val < 38318 := lt_of_lt_of_eq t.isLt (show cfg0.N = 38318 from N_0)
  show V c main_v3 (((cfg0.win 1).blk t).view.emb (ix1 e)) = V c main_v3 (ix1 (edgeIx (t.val / 49) e))
  refine congrArg _ (funext fun a => Fin.ext ?_)
  match a with
  | ⟨0, _⟩ =>
    show win0_1.index t 0 * 1024 + 1 * e.val = t.val / 49 % 782 * 1024 + e.val
    rw [idx1 t]; omega

/-- Entry k of the node-value block at point t is the value of padded node 1024 (t % 49) + k. -/
theorem vB_apply (c : Dev nD) (t : Fin cfg0.N) (k : Fin 1024) :
    vB V c t (ix1 k) = vp V c (ix1 (nodeIx (t.val % 49) k)) := by
  show V c main_v2 (((cfg0.win 2).blk t).view.emb (ix1 k)) = V c main_v2 (ix1 (nodeIx (t.val % 49) k))
  refine congrArg _ (funext fun a => Fin.ext ?_)
  match a with
  | ⟨0, _⟩ =>
    show win0_2.index t 0 * 1024 + 1 * k.val = t.val % 49 % 49 * 1024 + k.val
    rw [idx2 t]; omega

/-! ## The running value after every point -/

/-- At a tile's first chunk. -/
theorem held_A (c : Dev nD) (t : Fin cfg0.N) (h0 : t.val % 49 = 0) (e : Fin 1024) :
    outsAt0 V c t.val t.isLt (ix1 e) = held (colp V c) (wp V c) (vp V c) t.val e := by
  have h1 : ¬t.val % 49 = 48 := by omega
  rw [outsAt0_A V c t h0 h1,
    out_A (F := Ideal) c (grid0.coords t) (ms0_0 t) (hs0_0 t) (ms0_1 t) (hs0_1 t) (ms0_2 t) (hs0_2 t) (ms0_3 t) (hs0_3 t)
      ((hcond0_0 t).mpr h0) (fun h => h1 ((hcond0_1 t).mp h)) (iblk0 V c 0 t) (iblk0 V c 1 t) (iblk0 V c 2 t)]
  unfold held
  rw [if_neg h1]
  refine (lane_step (vp V c) (grid0.coords t) (t.val % 49) (coords1 t) (by omega) (colB V c t) (vB V c t)
    (k0_pay1 (F := Ideal)) e (fun k => vB_apply V c t k) ?_).trans ?_
  · rw [GatherLane.pay1_apply, h0, part_zero]
  · rw [colB_apply]

/-- At a chunk strictly inside a tile, from the point before (same tile, the chunk before). -/
theorem held_B (c : Dev nD) (t : Fin cfg0.N) (h0 : ¬t.val % 49 = 0) (h1 : ¬t.val % 49 = 48) (e : Fin 1024)
    (ih : outsAt0 V c (t.val - 1) (Nat.lt_of_le_of_lt (Nat.sub_le _ _) t.isLt) (ix1 e)
      = held (colp V c) (wp V c) (vp V c) (t.val - 1) e) :
    outsAt0 V c t.val t.isLt (ix1 e) = held (colp V c) (wp V c) (vp V c) t.val e := by
  rw [outsAt0_B V c t h0 h1,
    out_B (F := Ideal) c (grid0.coords t) (ms0_0 t) (hs0_0 t) (ms0_1 t) (hs0_1 t) (ms0_2 t) (hs0_2 t) (ms0_3 t) (hs0_3 t)
      (fun h => h0 ((hcond0_0 t).mp h)) (fun h => h1 ((hcond0_1 t).mp h)) (iblk0 V c 0 t) (iblk0 V c 1 t)
      (iblk0 V c 2 t) (outsAt0 V c (t.val - 1) (Nat.lt_of_le_of_lt (Nat.sub_le _ _) t.isLt))]
  unfold held
  rw [if_neg h1]
  refine (lane_step (vp V c) (grid0.coords t) (t.val % 49) (coords1 t) (by omega) (colB V c t) (vB V c t)
    (outsAt0 V c (t.val - 1) (Nat.lt_of_le_of_lt (Nat.sub_le _ _) t.isLt)) e (fun k => vB_apply V c t k) ?_).trans ?_
  · rw [ih, colB_apply]
    unfold held
    rw [if_neg (by omega), show (t.val - 1) / 49 = t.val / 49 by omega,
      show (t.val - 1) % 49 + 1 = t.val % 49 by omega]
  · rw [colB_apply]

/-- At a tile's last chunk, from the point before: the update, then the weight. -/
theorem held_C (c : Dev nD) (t : Fin cfg0.N) (h0 : ¬t.val % 49 = 0) (h1 : t.val % 49 = 48) (e : Fin 1024)
    (ih : outsAt0 V c (t.val - 1) (Nat.lt_of_le_of_lt (Nat.sub_le _ _) t.isLt) (ix1 e)
      = held (colp V c) (wp V c) (vp V c) (t.val - 1) e) :
    outsAt0 V c t.val t.isLt (ix1 e) = held (colp V c) (wp V c) (vp V c) t.val e := by
  rw [outsAt0_C V c t h0 h1,
    out_C (F := Ideal) c (grid0.coords t) (ms0_0 t) (hs0_0 t) (ms0_1 t) (hs0_1 t) (ms0_2 t) (hs0_2 t) (ms0_3 t) (hs0_3 t)
      (fun h => h0 ((hcond0_0 t).mp h)) ((hcond0_1 t).mpr h1) (iblk0 V c 0 t) (iblk0 V c 1 t)
      (iblk0 V c 2 t) (outsAt0 V c (t.val - 1) (Nat.lt_of_le_of_lt (Nat.sub_le _ _) t.isLt)),
    GatherLane.pay3_apply]
  unfold held
  rw [if_pos h1, msg_eq_part]
  refine congr (congrArg HMul.hMul ?_) (wB_apply V c t e)
  refine (lane_step (vp V c) (grid0.coords t) (t.val % 49) (coords1 t) (by omega) (colB V c t) (vB V c t)
    (outsAt0 V c (t.val - 1) (Nat.lt_of_le_of_lt (Nat.sub_le _ _) t.isLt)) e (fun k => vB_apply V c t k) ?_).trans ?_
  · rw [ih, colB_apply]
    unfold held
    rw [if_neg (by omega), show (t.val - 1) / 49 = t.val / 49 by omega,
      show (t.val - 1) % 49 + 1 = t.val % 49 by omega]
  · rw [colB_apply, h1]

/-- After every point, by induction on the point. -/
theorem outsAt_eq (c : Dev nD) : ∀ (n : ℕ) (h : n < cfg0.N) (e : Fin 1024),
    outsAt0 V c n h (ix1 e) = held (colp V c) (wp V c) (vp V c) n e
  | 0, h, e => held_A V c ⟨0, h⟩ (Nat.zero_mod 49) e
  | n + 1, h, e => by
    by_cases h0 : (n + 1) % 49 = 0
    · exact held_A V c ⟨n + 1, h⟩ h0 e
    · by_cases h1 : (n + 1) % 49 = 48
      · exact held_C V c ⟨n + 1, h⟩ h0 h1 e (outsAt_eq c n (Nat.lt_of_succ_lt h) e)
      · exact held_B V c ⟨n + 1, h⟩ h0 h1 e (outsAt_eq c n (Nat.lt_of_succ_lt h) e)

/-! ## The write-backs -/

/-- A tile's write-back, after its last chunk, writes the messages of the tile's 1024 padded edges. -/
theorem flushed_eq (c : Dev nD) (t : Fin cfg0.N) (hf : (cfg0.win 3).flush t = true) :
    (dat0 (F := Ideal) V c).flushed 3 t
      = ((cfg0.win 3).blk t).view.read (Elt Ideal) (msg (V c main_v5) (V c main_v3) (V c main_v2)) := by
  have h48 : t.val % 49 = 48 := (flush0_3 t).mp hf
  have hN : t.val < 38318 := lt_of_lt_of_eq t.isLt (show cfg0.N = 38318 from N_0)
  funext y
  rw [View.read_apply]
  show (dat0 V c).after 3 t ((cfg0.win 3).xinj (cfg0.grid.coords t) y) = _
  rw [after0_3]
  have hy : (y 0 : Nat) < 1024 := (y 0).isLt
  have ey : (cfg0.win 3).xinj (cfg0.grid.coords t) y = ix1 (⟨(y 0).val, hy⟩ : Fin 1024) :=
    funext fun a => match a with | ⟨0, _⟩ => rfl
  have eE : ((cfg0.win 3).blk t).view.emb y = ix1 (edgeIx (t.val / 49) ⟨(y 0).val, hy⟩) :=
    funext fun a => Fin.ext (by
      match a with
      | ⟨0, _⟩ =>
        show win0_3.index t 0 * 1024 + 1 * (y 0).val = t.val / 49 % 782 * 1024 + (y 0).val
        rw [idx3 t]; omega)
  rw [ey, eE, outsAt_eq V c t.val t.isLt ⟨(y 0).val, hy⟩]
  unfold held
  rw [if_pos h48]
  exact (cast_eq _ _).symm

/-- The block written back at point t is the padded edges 1024 (t / 49) … 1024 (t / 49) + 1023. -/
theorem mem_blk (c : Dev nD) (t : Fin cfg0.N) (i : ((cfg0.win 3).arr.view.loc (c.tc : Thread nD τ)).2.ty.Idx) :
    i ∈ ((cfg0.win 3).blk t).view.set ↔ t.val / 49 * 1024 ≤ (i 0 : Nat) ∧ (i 0 : Nat) < t.val / 49 * 1024 + 1024 := by
  show i ∈ ((View.whole main_v6).slice (win0_3.rect t)).set ↔ _
  rw [View.set_slice_whole, Rect.mem_set_unit]
  constructor
  · intro h
    have e : win0_3.index t 0 * 1024 ≤ (i 0 : Nat) ∧ (i 0 : Nat) < win0_3.index t 0 * 1024 + 1024 := h 0
    rw [idx3 t] at e
    exact e
  · intro h a
    match a with
    | ⟨0, _⟩ =>
      show win0_3.index t 0 * 1024 ≤ (i 0 : Nat) ∧ (i 0 : Nat) < win0_3.index t 0 * 1024 + 1024
      rw [idx3 t]
      exact h

/-- Padded edge E is written back at the last chunk of its tile E / 1024. -/
theorem cover (c : Dev nD) (i : ((cfg0.win 3).arr.view.loc (c.tc : Thread nD τ)).2.ty.Idx) :
    ∃ t : Fin cfg0.N, (cfg0.win 3).flush t = true ∧ i ∈ ((cfg0.win 3).blk t).view.set := by
  have h0 : (i 0 : Nat) < 800768 := (i 0).isLt
  have hN : cfg0.N = 38318 := N_0
  refine ⟨⟨(i 0).val / 1024 * 49 + 48, lt_of_lt_of_eq (by omega) hN.symm⟩,
    (flush0_3 _).mpr (by show ((i 0).val / 1024 * 49 + 48) % 49 = 48; omega), ?_⟩
  rw [mem_blk]
  show ((i 0).val / 1024 * 49 + 48) / 49 * 1024 ≤ (i 0 : Nat)
    ∧ (i 0 : Nat) < ((i 0).val / 1024 * 49 + 48) / 49 * 1024 + 1024
  omega

/-- After the gather call its result array holds every padded edge's message, whatever the buffers held on entry. -/
theorem final (c : Dev nD) :
    (dat0 (F := Ideal) V c).arrAt 3 cfg0.N = Cert.EdgeSum.msg (V c main_v5) (V c main_v3) (V c main_v2) :=
  (dat0 (F := Ideal) V c).arrAt_eq_of_cover 3 (Cert.EdgeSum.msg (V c main_v5) (V c main_v3) (V c main_v2))
    (flushed_eq V c) (cover c)

end Cert.KernelIdeal.GatherRegion

end
-- ==== Proof.ScatterLane.lean ====
/-
  The scatter call's body, read lane by lane.

  The body builds a 1024 x 1024 matrix whose row is an edge lane and whose column a node lane: entry (e, n) is the
  message of edge e where the edge's target word equals the node number 1024 * (tile) + n, and zero elsewhere; it
  sums the matrix along its rows and adds the running value. Read at node lane n this is the running value at n
  plus the sum, over the edge lanes, of the messages whose target word names that node. The node number never
  wraps: the tile coordinate is below 49, so 1024 * tile + n stays below 2 ^ 32, and the equation of 32-bit words
  is the equation of the numbers they denote.
-/
import proofs.«426111_j39127152066908_1_alg».proof.Proof.Gen.KernelIdeal.Skeleton
import proofs.«426111_j39127152066908_1_alg».proof.Proof.LibColumn
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.ScatterLane

open Cert.KernelIdeal Cert.KernelIdeal.Gen

/-! ## The matrix's three ingredients at an entry -/

/-- A lane vector cast to a column and broadcast over the matrix reads, at (e, n), the vector at the row e. -/
private theorem column_apply {α : Type} (x : (⟨1, ![1024]⟩ : Shape).Idx → α)
    (h1 : (⟨1, ![1024]⟩ : Shape).ShapeCasts ⟨2, ![1024, 1]⟩)
    (h2 : (⟨2, ![1024, 1]⟩ : Shape).Broadcasts ⟨2, ![1024, 1024]⟩) (e n : Fin 1024) :
    broadcastTo ⟨2, ![1024, 1024]⟩ (shapeCast ⟨2, ![1024, 1]⟩ x h1) h2 (ix2 e n) = x (ix1 e) := by
  rw [Cert.LibColumn.broadcastTo_a1_ab_apply, Cert.LibColumn.shapeCast_a_a1_apply]

/-- A constant column broadcast over the matrix reads the constant everywhere. -/
private theorem constColumn_apply {α : Type} (c : α)
    (h2 : (⟨2, ![1024, 1]⟩ : Shape).Broadcasts ⟨2, ![1024, 1024]⟩) (e n : Fin 1024) :
    broadcastTo ⟨2, ![1024, 1024]⟩ (broadcast ⟨2, ![1024, 1]⟩ c) h2 (ix2 e n) = c := by
  rw [Cert.LibColumn.broadcastTo_a1_ab_apply, broadcast_apply]

/-- The row of node numbers, a base word plus the lane count, broadcast over the matrix reads, at (e, n), the base
    plus n. -/
private theorem nodeRow_apply (w : BitVec 32) (hi : (⟨2, ![1, 1024]⟩ : Shape).Iotas .tc 32 [1])
    (h2 : (⟨2, ![1, 1024]⟩ : Shape).Broadcasts ⟨2, ![1024, 1024]⟩) (e n : Fin 1024) :
    broadcastTo ⟨2, ![1024, 1024]⟩ (addi (broadcast ⟨2, ![1, 1024]⟩ w) (iota .tc ⟨2, ![1, 1024]⟩ 32 [1] hi)) h2 (ix2 e n)
      = w + BitVec.ofNat 32 n.val := by
  rw [broadcastTo_1b_ab_apply]
  show w + iota .tc ⟨2, ![1, 1024]⟩ 32 [1] hi (ix2 (0 : Fin 1) n) = w + BitVec.ofNat 32 n.val
  rw [iota_single_apply]

/-- A pointwise comparison of words read at an index compares the words there. -/
private theorem cmpi_apply {s : Shape} (p : CmpIPredicate) (x y : IVec s 32) (j : s.Idx) :
    cmpi p x y j = IntOp.cmpi p (x j) (y j) := rfl

/-! ## The comparison as a proposition -/

/-- Selecting on the equality bit of two words is the choice on their equality. -/
private theorem select_cmpi_eq {α : Type} (x y : BitVec 32) (a b : α) :
    Scalar.select (IntOp.cmpi .eq x y) a b = if x = y then a else b := by
  have hbit : ∀ c : Bool, BitVec.ofBool c = 1#1 ↔ c = true := fun c => by cases c <;> decide
  have hiff : IntOp.cmpi .eq x y = 1#1 ↔ x = y := (hbit (x == y)).trans beq_iff_eq
  exact if_congr hiff rfl rfl

/-- A word equals the node number 1024 j + n, computed in 32-bit words, exactly when it denotes that number: with
    j < 49 and n < 1024 nothing wraps. -/
private theorem word_eq_iff (x : BitVec 32) (j n : ℕ) (hj : j < 49) (hn : n < 1024) :
    x = BitVec.ofNat 32 j * 1024#32 + BitVec.ofNat 32 n ↔ x.toNat = j * 1024 + n := by
  have hv : (BitVec.ofNat 32 j * 1024#32 + BitVec.ofNat 32 n).toNat = j * 1024 + n := by
    simp only [BitVec.toNat_add, BitVec.toNat_mul, BitVec.toNat_ofNat]
    omega
  constructor
  · intro h
    rw [h, hv]
  · intro h
    exact BitVec.eq_of_toNat_eq (h.trans hv.symm)

/-! ## The two payloads -/

/-- The reset stores zero in every lane. -/
theorem pay1_apply (n : Fin 1024) : k1_pay1 (F := Ideal) (ix1 n) = 0 := by
  show Ideal.ofBits .f32 0x00000000#32 = 0
  exact Ideal.ofBits_zero_f32

/-- One edge chunk's step, at node lane n of node tile i 0: the running value plus the messages of the chunk's edges
    whose target word names node 1024 (i 0) + n. -/
theorem pay2_apply (i : grid1.Coords) (row : Vec Ideal S1024 .i32) (ms acc : Vec Ideal S1024 .f32) (n : Fin 1024) :
    k1_pay2 (F := Ideal) i row ms acc (ix1 n) = acc (ix1 n) +
      ∑ e : Fin 1024, if (row (ix1 e)).toNat = (i 0).val * 1024 + n.val then ms (ix1 e) else 0 := by
  have hj : (i 0).val < 49 := (i 0).isLt
  unfold k1_pay2
  simp only [shapeCast_self]
  rw [addf_apply]
  refine (congrArg (acc (ix1 n) + ·) (Cert.LibColumn.sumAxis0_apply _ _ _ _ _ n)).trans ?_
  refine congrArg (acc (ix1 n) + ·) (Finset.sum_congr rfl fun e _ => ?_)
  rw [select_apply, cmpi_apply, column_apply, column_apply, constColumn_apply, nodeRow_apply, select_cmpi_eq]
  show (if row (ix1 e) = BitVec.ofNat 32 (i 0).val * 1024#32 + BitVec.ofNat 32 n.val then ms (ix1 e)
    else Ideal.ofBits .f32 0x00000000#32) = _
  rw [Ideal.ofBits_zero_f32]
  exact if_congr (word_eq_iff _ _ _ hj n.isLt) rfl rfl

end Cert.KernelIdeal.ScatterLane

end
-- ==== Proof.ScatterRegion.lean ====
/-
  The scatter call: what its result array holds.

  The call runs over 49 tiles of 1024 padded nodes and, inside each tile, over the 782 chunks of 1024 padded edges.
  At a tile's first chunk its block of the result is set to zero; at every chunk, each node of the tile gains the
  messages of the chunk's edges whose target word names it; after the last chunk the block is written to the result
  array. So after chunk k the entry of node 1024 q + l in the block of tile q is the sum of the messages of the edges
  below 1024 (k + 1) that name it, and what is written back is the node's whole sum. Sums over the extended reals may
  be taken in any order, so the sum over the edges below a bound splits chunk by chunk.
-/
import proofs.«426111_j39127152066908_1_alg».proof.Proof.Gen.KernelIdeal.Frame
import proofs.«426111_j39127152066908_1_alg».proof.Proof.EdgeSum
import proofs.«426111_j39127152066908_1_alg».proof.Proof.ScatterLane
import proofs.«426111_j39127152066908_1_alg».proof.Proof.GridFacts
import Idealize.ShloMosaic.Lib.Pipeline.Value
import Idealize.ShloMosaic.Lib.ValueLayout
import Idealize.ShloMosaic.Lib.Tactic

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.ScatterRegion

open Cert.KernelIdeal Cert.KernelIdeal.Gen

/-! ## A sum over the padded edges, chunk by chunk -/

section Sums

variable (f : Fin 800768 → EReal) (p : Fin 800768 → Prop) [DecidablePred p]

/-- The edges below chunk k + 1 are the edges below chunk k and the 1024 edges of chunk k: the sum over the former
    of the terms picked by p is the sum over the latter two. -/
theorem sum_chunk (k : ℕ) (hk : k < 782) :
    (∑ E : Fin 800768, if E.val < (k + 1) * 1024 ∧ p E then f E else 0)
      = (∑ E : Fin 800768, if E.val < k * 1024 ∧ p E then f E else 0)
        + ∑ e : Fin 1024, if p ⟨k * 1024 + e.val, by have := e.isLt; omega⟩
            then f ⟨k * 1024 + e.val, by have := e.isLt; omega⟩ else 0 := by
  -- edge by edge: below chunk k + 1 means below chunk k or inside chunk k, and never both
  have hsplit : ∀ E : Fin 800768,
      (if E.val < (k + 1) * 1024 ∧ p E then f E else 0)
        = (if E.val < k * 1024 ∧ p E then f E else 0)
          + (if (k * 1024 ≤ E.val ∧ E.val < (k + 1) * 1024) ∧ p E then f E else 0) := by
    intro E
    by_cases hp : p E
    · by_cases h1 : E.val < k * 1024
      · have h2 : E.val < (k + 1) * 1024 := by omega
        have h3 : ¬(k * 1024 ≤ E.val ∧ E.val < (k + 1) * 1024) := by omega
        rw [if_pos ⟨h2, hp⟩, if_pos ⟨h1, hp⟩, if_neg (fun h => h3 h.1), add_zero]
      · by_cases h2 : E.val < (k + 1) * 1024
        · rw [if_pos ⟨h2, hp⟩, if_neg (fun h => h1 h.1), if_pos ⟨⟨by omega, h2⟩, hp⟩, zero_add]
        · rw [if_neg (fun h => h2 h.1), if_neg (fun h => h1 h.1), if_neg (fun h => h2 h.1.2), add_zero]
    · rw [if_neg (fun h => hp h.2), if_neg (fun h => hp h.2), if_neg (fun h => hp h.2), add_zero]
  refine (Finset.sum_congr rfl (fun E _ => hsplit E)).trans ?_
  refine Finset.sum_add_distrib.trans (congrArg _ ?_)
  symm
  -- the edges inside chunk k are the image of e ↦ 1024 k + e, which is one-to-one; every other edge adds nothing
  refine Finset.sum_of_injOn (fun e : Fin 1024 => (⟨k * 1024 + e.val, by have := e.isLt; omega⟩ : Fin 800768)) ?_ ?_ ?_ ?_
  · intro a _ b _ hab
    have := congrArg Fin.val hab
    exact Fin.ext (by simpa using this)
  · intro a _; exact Finset.mem_coe.mpr (Finset.mem_univ _)
  · intro E _ hE
    refine if_neg fun h => hE ⟨⟨E.val - k * 1024, by omega⟩, Finset.mem_coe.mpr (Finset.mem_univ _), Fin.ext ?_⟩
    show k * 1024 + (E.val - k * 1024) = E.val
    omega
  · intro e _
    have h1 : k * 1024 ≤ k * 1024 + e.val ∧ k * 1024 + e.val < (k + 1) * 1024 := by have := e.isLt; omega
    by_cases hp : p ⟨k * 1024 + e.val, by have := e.isLt; omega⟩
    · rw [if_pos hp, if_pos ⟨h1, hp⟩]
    · rw [if_neg hp, if_neg (fun h => hp h.2)]

end Sums

/-! ## The grid: point t is chunk t % 782 of tile t / 782 -/

theorem hz : (![0] : Fin 1 → Nat) = fun _ => 0 := funext fun a => by fin_cases a <;> rfl

/-- The points run through a tile's 782 chunks before the next tile: the tile of point t is t / 782. -/
theorem tile_of_point (t : Fin cfg1.N) : (grid1.coords t 0).val = t.val / 782 := (GridFacts.scatter_coords t).1

/-- The two inputs' blocks follow the chunk, -/
theorem idx_rows (t : Fin cfg1.N) : win1_0.index t (0 : Fin 1) = t.val % 782 := (GridFacts.scatter_index t).1

theorem idx_msgs (t : Fin cfg1.N) : win1_1.index t (0 : Fin 1) = t.val % 782 := (GridFacts.scatter_index t).2.1

/-- the result's block follows the tile. -/
theorem idx_out (t : Fin cfg1.N) : win1_2.index t (0 : Fin 1) = t.val / 782 := (GridFacts.scatter_index t).2.2

/-! ## What one run of the body leaves in the result's block -/

/-- At a tile's first chunk the body stores zeros and then the step over the zeros it has just stored. -/
theorem out_reset (c : Dev nD) (i : grid1.Coords) (a2 : Memref sig .tc .vmem S1024 .i32) (h2 : a2.IsWhole)
    (a3 : Memref sig .tc .vmem S1024 .f32) (h3 : a3.IsWhole) (a4 : Memref sig .tc .vmem S1024 .f32) (h4 : a4.IsWhole)
    (hc : cond1_0 i) (x0 : Vec Ideal S1024 .i32) (x1 : Vec Ideal S1024 .f32) :
    out1_A_2 (F := Ideal) c i a2 h2 a3 h3 a4 h4 hc x0 x1 = k1_pay2 (F := Ideal) i x0 x1 (k1_pay1 (F := Ideal)) := by
  unfold out1_A_2
  rw [View.read_writes_eq_canon _ _ _ (cover1_A_2 c i a2 h2 a3 h3 a4 h4 hc x0 x1)]
  unfold kernelRun1_A
  dsimp only
  sl_unfold_words
  rw [View.canon_cons_unit_zero (S := S1024) hz, View.readCov_unit_zero (S := S1024) _ hz]
  simp only [View.readAt_eq_ld, h2.read_unread, h3.read_unread, View.ld_unit_zero (S := S1024) hz, shapeCast_self]

/-- At any later chunk it stores the step over what the chunk before left. -/
theorem out_step (c : Dev nD) (i : grid1.Coords) (a2 : Memref sig .tc .vmem S1024 .i32) (h2 : a2.IsWhole)
    (a3 : Memref sig .tc .vmem S1024 .f32) (h3 : a3.IsWhole) (a4 : Memref sig .tc .vmem S1024 .f32) (h4 : a4.IsWhole)
    (hc : ¬cond1_0 i) (x0 : Vec Ideal S1024 .i32) (x1 : Vec Ideal S1024 .f32) (xo : Vec Ideal S1024 .f32) :
    out1_B_2 (F := Ideal) c i a2 h2 a3 h3 a4 h4 hc x0 x1 xo = k1_pay2 (F := Ideal) i x0 x1 xo := by
  unfold out1_B_2
  rw [View.read_writes_eq_canon _ _ _ (cover1_B_2 c i a2 h2 a3 h3 a4 h4 hc x0 x1 xo)]
  unfold kernelRun1_B
  dsimp only
  sl_unfold_words
  rw [View.canon_unit_zero hz]
  simp only [View.readAt_eq_ld, h2.read_unread, h3.read_unread, h4.read_unread, View.ld_unit_zero (S := S1024) hz, shapeCast_self]

variable (V : (c : Dev nD) → (b : Ref sig .tc) → Buf (Elt Ideal) ((c : Thread nD τ).loc b))

/-! ## The arrays and the blocks the call reads -/

/-- The padded target words and the padded messages, as the call finds them. -/
abbrev rowArr (c : Dev nD) : Cert.EdgeSum.SEp.Idx → BitVec 32 := V c main_v4
abbrev msgArr (c : Dev nD) : Cert.EdgeSum.SEp.Idx → EReal := V c main_v6
/-- The block of target words and the block of messages the body is given at a point. -/
abbrev rowBlk (c : Dev nD) (t : Fin cfg1.N) : Vec Ideal S1024 .i32 := iblk1 V c 0 t
abbrev msgBlk (c : Dev nD) (t : Fin cfg1.N) : Vec Ideal S1024 .f32 := iblk1 V c 1 t

/-- The blocks at point t are chunk t % 782 of the arrays: entry e is edge 1024 (t % 782) + e. -/
theorem rows_blk (c : Dev nD) (t : Fin cfg1.N) (e : Fin 1024) (h : t.val % 782 * 1024 + e.val < 800768) :
    rowBlk V c t (ix1 e) = rowArr V c (ix1 ⟨t.val % 782 * 1024 + e.val, h⟩) := by
  show V c main_v4 (((cfg1.win 0).blk t).view.emb (ix1 e)) = V c main_v4 (ix1 ⟨_, h⟩)
  refine congrArg _ (funext fun a => Fin.ext ?_)
  match a with
  | ⟨0, _⟩ => show win1_0.index t 0 * 1024 + 1 * e.val = t.val % 782 * 1024 + e.val; rw [idx_rows]; omega

theorem msgs_blk (c : Dev nD) (t : Fin cfg1.N) (e : Fin 1024) (h : t.val % 782 * 1024 + e.val < 800768) :
    msgBlk V c t (ix1 e) = msgArr V c (ix1 ⟨t.val % 782 * 1024 + e.val, h⟩) := by
  show V c main_v6 (((cfg1.win 1).blk t).view.emb (ix1 e)) = V c main_v6 (ix1 ⟨_, h⟩)
  refine congrArg _ (funext fun a => Fin.ext ?_)
  match a with
  | ⟨0, _⟩ => show win1_1.index t 0 * 1024 + 1 * e.val = t.val % 782 * 1024 + e.val; rw [idx_msgs]; omega

/-! ## The running sums -/

/-- The messages of the edges below chunk k whose target word names node 1024 q + l, summed. -/
def part (c : Dev nD) (q k : ℕ) (l : Fin 1024) : EReal :=
  ∑ E : Fin 800768, if E.val < k * 1024 ∧ (rowArr V c (ix1 E)).toNat = q * 1024 + l.val then msgArr V c (ix1 E) else 0

/-- Below chunk 0 there is no edge. -/
theorem part_zero (c : Dev nD) (q : ℕ) (l : Fin 1024) : part V c q 0 l = 0 :=
  Finset.sum_eq_zero fun E _ => if_neg fun h => absurd h.1 (by omega)

/-- One chunk more: the sum gains the chunk's messages for the node, read off the blocks at the point. -/
theorem part_succ (c : Dev nD) (t : Fin cfg1.N) (l : Fin 1024) :
    part V c (t.val / 782) (t.val % 782 + 1) l = part V c (t.val / 782) (t.val % 782) l
      + ∑ e : Fin 1024, if (rowBlk V c t (ix1 e)).toNat = (grid1.coords t 0).val * 1024 + l.val
          then msgBlk V c t (ix1 e) else 0 := by
  have hk : t.val % 782 < 782 := Nat.mod_lt _ (by decide)
  refine (sum_chunk (fun E => msgArr V c (ix1 E)) (fun E => (rowArr V c (ix1 E)).toNat = t.val / 782 * 1024 + l.val)
    (t.val % 782) hk).trans (congrArg _ (Finset.sum_congr rfl fun e _ => ?_))
  have he : t.val % 782 * 1024 + e.val < 800768 := by have := e.isLt; omega
  rw [rows_blk V c t e he, msgs_blk V c t e he, tile_of_point]

/-- With all 782 chunks in, the sum is the node's whole sum. -/
theorem part_last (c : Dev nD) (q k : ℕ) (hk : k = 781) (l : Fin 1024) (N : Cert.EdgeSum.SNp.Idx)
    (hN : (N 0).val = q * 1024 + l.val) :
    part V c q (k + 1) l = Cert.EdgeSum.nodeSum (rowArr V c) (msgArr V c) N := by
  subst hk
  refine Finset.sum_congr rfl fun E _ => ?_
  have hE : E.val < (781 + 1) * 1024 := E.isLt
  rw [hN]
  by_cases hp : (rowArr V c (ix1 E)).toNat = q * 1024 + l.val
  · rw [if_pos ⟨hE, hp⟩, if_pos hp]
  · rw [if_neg fun h => hp h.2, if_neg hp]

/-! ## The result's block after every point -/

/-- At a tile's first chunk: the step over zeros. -/
theorem outs_reset (c : Dev nD) (t : Fin cfg1.N) (h0 : t.val % 782 = 0) :
    outsAt1 V c t.val t.isLt
      = k1_pay2 (F := Ideal) (grid1.coords t) (rowBlk V c t) (msgBlk V c t) (k1_pay1 (F := Ideal)) :=
  (outsAt1_A V c t h0).trans
    (out_reset c (grid1.coords t) (ms1_0 t) (hs1_0 t) (ms1_1 t) (hs1_1 t) (ms1_2 t) (hs1_2 t) ((hcond1_0 t).mpr h0)
      (rowBlk V c t) (msgBlk V c t))

/-- At a later chunk: the step over what the point before left. -/
theorem outs_step (c : Dev nD) (t : Fin cfg1.N) (h0 : ¬t.val % 782 = 0) :
    outsAt1 V c t.val t.isLt
      = k1_pay2 (F := Ideal) (grid1.coords t) (rowBlk V c t) (msgBlk V c t)
          (outsAt1 V c (t.val - 1) (Nat.lt_of_le_of_lt (Nat.sub_le _ _) t.isLt)) :=
  (outsAt1_B V c t h0).trans
    (out_step c (grid1.coords t) (ms1_0 t) (hs1_0 t) (ms1_1 t) (hs1_1 t) (ms1_2 t) (hs1_2 t)
      (fun h => h0 ((hcond1_0 t).mp h)) (rowBlk V c t) (msgBlk V c t)
      (outsAt1 V c (t.val - 1) (Nat.lt_of_le_of_lt (Nat.sub_le _ _) t.isLt)))

/-- After point n the block holds, for each node of tile n / 782, the sum over the edges up to and including chunk
    n % 782: by induction on the point, the reset starting from the empty sum and each later chunk adding its own. -/
theorem outs_eq (c : Dev nD) : ∀ (n : ℕ) (h : n < cfg1.N) (l : Fin 1024),
    outsAt1 V c n h (ix1 l) = part V c (n / 782) (n % 782 + 1) l := by
  intro n
  induction n with
  | zero =>
    intro h l
    refine (congrFun (outs_reset V c ⟨0, h⟩ rfl) (ix1 l)).trans ?_
    rw [ScatterLane.pay2_apply, ScatterLane.pay1_apply, part_succ V c ⟨0, h⟩ l]
    show _ = part V c (0 / 782) (0 % 782) l + _
    rw [show 0 % 782 = 0 from rfl, part_zero]
  | succ n ih =>
    intro h l
    by_cases h0 : (n + 1) % 782 = 0
    · refine (congrFun (outs_reset V c ⟨n + 1, h⟩ h0) (ix1 l)).trans ?_
      rw [ScatterLane.pay2_apply, ScatterLane.pay1_apply, part_succ V c ⟨n + 1, h⟩ l]
      show _ = part V c ((n + 1) / 782) ((n + 1) % 782) l + _
      rw [h0, part_zero]
    · refine (congrFun (outs_step V c ⟨n + 1, h⟩ h0) (ix1 l)).trans ?_
      rw [ScatterLane.pay2_apply, part_succ V c ⟨n + 1, h⟩ l]
      show outsAt1 V c n _ (ix1 l) + _ = part V c ((n + 1) / 782) ((n + 1) % 782) l + _
      rw [ih (Nat.lt_of_succ_lt h) l, show n / 782 = (n + 1) / 782 from by omega,
        show n % 782 + 1 = (n + 1) % 782 from by omega]

/-- The same at any index of the block. -/
theorem outs_at (c : Dev nD) (n : ℕ) (h : n < cfg1.N) (y : S1024.Idx) :
    outsAt1 V c n h y = part V c (n / 782) (n % 782 + 1) (y 0) := by
  obtain ⟨l, rfl⟩ : ∃ l : Fin 1024, y = ix1 l := ⟨y 0, eq_ix1 y⟩
  exact outs_eq V c n h l

/-! ## The write-backs -/

/-- Entry y of the result's block at a point, read off an array, is the array's entry under it, -/
theorem read_out (c : Dev nD) (t : Fin cfg1.N) (G : Cert.EdgeSum.SNp.Idx → EReal) (y : S1024.Idx) :
    ((cfg1.win 2).blk t).view.read (Elt Ideal) G y = G (((cfg1.win 2).blk t).view.emb y) := rfl

/-- which is node 1024 (t / 782) + y. -/
theorem emb_out (t : Fin cfg1.N) (y : S1024.Idx) :
    ((((cfg1.win 2).blk t).view.emb y : Cert.EdgeSum.SNp.Idx) 0).val = t.val / 782 * 1024 + (y 0).val := by
  show win1_2.index t 0 * 1024 + 1 * (y 0).val = t.val / 782 * 1024 + (y 0).val
  rw [idx_out]
  omega

/-- A tile's block is written back after its last chunk, holding the whole sums of the tile's nodes: the block of the
    node sums at that tile. -/
theorem flushed_eq (c : Dev nD) (t : Fin cfg1.N) (hf : (cfg1.win 2).flush t = true) :
    (dat1 (F := Ideal) V c).flushed 2 t
      = ((cfg1.win 2).blk t).view.read (Elt Ideal) (Cert.EdgeSum.nodeSum (V c main_v4) (V c main_v6)) := by
  have hk : t.val % 782 = 781 := (flush1_2 t).mp hf
  show (cfg1.win 2).cut (grid1.coords t) ((dat1 (F := Ideal) V c).after 2 t) = _
  rw [after1_2]
  funext y
  refine ((outs_at V c t.val t.isLt ((cfg1.win 2).xinj (grid1.coords t) y)).trans ?_).trans
    (read_out c t (Cert.EdgeSum.nodeSum (V c main_v4) (V c main_v6)) y).symm
  exact part_last V c (t.val / 782) (t.val % 782) hk (y 0) (((cfg1.win 2).blk t).view.emb y) (emb_out t y)

/-- Every padded node N lies in the block written back after the last chunk of its tile N / 1024. -/
theorem cover (c : Dev nD) (i : ((cfg1.win 2).arr.view.loc (c.tc : Thread nD τ)).2.ty.Idx) :
    ∃ t : Fin cfg1.N, (cfg1.win 2).flush t = true ∧ i ∈ ((cfg1.win 2).blk t).view.set := by
  have hN : cfg1.N = 38318 := N_1
  have hi : (i 0 : Nat) < 50176 := (i 0).isLt
  have ht : (i 0 : Nat) / 1024 * 782 + 781 < cfg1.N := by rw [hN]; omega
  refine ⟨⟨_, ht⟩, (flush1_2 _).mpr (by dsimp only; omega), ?_⟩
  show i ∈ ((View.whole main_v7).slice (win1_2.rect ⟨_, ht⟩)).set
  rw [View.set_slice_whole, Rect.mem_set_unit]
  intro a
  match a with
  | ⟨0, _⟩ =>
    show win1_2.index ⟨_, ht⟩ 0 * 1024 ≤ (i 0 : Nat) ∧ (i 0 : Nat) < win1_2.index ⟨_, ht⟩ 0 * 1024 + 1024
    rw [idx_out]
    dsimp only
    omega

/-- After the scatter call its result array holds every padded node's sum of messages, whatever the buffers held on entry. -/
theorem final (c : Dev nD) :
    (dat1 (F := Ideal) V c).arrAt 2 cfg1.N = Cert.EdgeSum.nodeSum (V c main_v4) (V c main_v6) :=
  (dat1 (F := Ideal) V c).arrAt_eq_of_cover 2 (Cert.EdgeSum.nodeSum (V c main_v4) (V c main_v6)) (flushed_eq V c) (cover c)

end Cert.KernelIdeal.ScatterRegion

end
-- ==== Proof.RefValue.lean ====
/-
  The reference program's run, read: its result buffer as the logistic function of the sum of the positive parts of the
  nodes' values, where every edge's endpoints are nodes of the graph.

  The reference gathers, for each of the 800000 edges, the feature row of the edge's source node out of the [50000, 128]
  table, scales it by the edge's weight, and adds the scaled rows into a [50000, 128] table of zeros at the rows the
  edges' target words name; then it takes the positive part, keeps column 0, sums it and applies the logistic function.
  Two index computations carry the reading. A gather's result element (E, f) reads the table at (the E-th source word,
  f): the word is read signed and clamped into the table, which changes nothing for a word below 50000, and the wrap of
  negative words the reference applies first leaves such a word as it is. A scatter's update (E, f) lands at (the E-th
  target word, f), again because a word below 50000 read signed is itself. So the element (I, 0) of the scattered table
  is the sum, over the edges whose target word is I, of the weight times feature 0 of the source node: the updates
  (E, f) that land on (I, 0) are those with target word I and f = 0. Sums of extended reals may be taken in any order
  and 0 + x = x, so nothing here needs the values to be finite.
-/
import proofs.«426111_j39127152066908_1_alg».proof.Proof.Gen.ReferenceIdeal.Run
import proofs.«426111_j39127152066908_1_alg».proof.Proof.Gen.ReferenceIdeal.Read
import proofs.«426111_j39127152066908_1_alg».proof.Proof.EdgeSum
import proofs.«426111_j39127152066908_1_alg».proof.Proof.LibVector
import Idealize.ShloMosaic.Lib.Pipeline.Value
import Idealize.ShloMosaic.Lib.ValueIdx
import Idealize.ShloMosaic.Lib.StableHlo.Run
import Idealize.ShloMosaic.PureOps.Ideal.Laws

set_option maxRecDepth 16384

noncomputable section

open scoped BigOperators
open Idealize.ShloMosaic Idealize.ShloMosaic.TcCoe Idealize.SL.Sem Idealize.ShloMosaic.ValueIdx

namespace Cert.ReferenceIdeal.RefValue

open Cert.ReferenceIdeal Cert.ReferenceIdeal.Gen

/-! ## Where an update lands and what a gathered element reads -/

/-- The scatter's dimension numbers and the gather's. -/
abbrev sd : ScatterDims S50000x128 S800000x1 S800000x128 := scatter_S50000x128_S800000x1_S800000x128_1_0_0_1
abbrev gd : GatherDims S50000x128 S800000x1 S800000x128 := gather_S50000x128_S800000x1_S800000x128_1_0_n_n_0_1_1128

/-- A 32-bit word below 50000 read signed is the word read unsigned. -/
theorem toInt_of_lt (x : BitVec 32) (h : x.toNat < 50000) : x.toInt = (x.toNat : Int) :=
  BitVec.toInt_eq_toNat_of_lt (by omega)

/-- The scatter-index position update (E, f) reads its start from: row E of the index column. -/
theorem sd_siIdx (E : Fin 800000) (f : Fin 128) (c : Fin sd.scatterDimsToOperandDims.length) :
    sd.siIdx (ix2 E f) c = ix2 E (0 : Fin 1) := by
  funext b; refine Fin.ext ?_
  match b with
  | ⟨0, _⟩ => rfl
  | ⟨1, _⟩ =>
    have hc : c.val < 1 := c.isLt
    show c.val = 0
    omega

/-- On the row axis the window of update (E, f) starts at the E-th index word, read signed. -/
theorem sd_start0 (idx : IVec S800000x1 32) (E : Fin 800000) (f : Fin 128) :
    sd.start (ix2 E f) idx (0 : Fin 2) = (idx (ix2 E (0 : Fin 1))).toInt := by
  unfold ScatterDims.start
  rw [dif_pos (show (0 : Fin 2) ∈ sd.scatterDimsToOperandDims from List.mem_singleton.mpr rfl), sd_siIdx]

/-- On the column axis it starts at 0: the index words name rows only. -/
theorem sd_start1 (idx : IVec S800000x1 32) (E : Fin 800000) (f : Fin 128) :
    sd.start (ix2 E f) idx (1 : Fin 2) = 0 := by
  unfold ScatterDims.start
  rw [dif_neg (show ¬ (1 : Fin 2) ∈ sd.scatterDimsToOperandDims by decide)]

/-- The window has no extent along the rows … -/
theorem sd_window0 (E : Fin 800000) (f : Fin 128) : sd.window (ix2 E f) (0 : Fin 2) = 0 := by
  unfold ScatterDims.window
  rw [dif_neg (show ¬ (0 : Fin 2) ∈ sd.sKept by decide)]

/-- … and along the columns its coordinate is f. -/
theorem sd_window1 (E : Fin 800000) (f : Fin 128) : sd.window (ix2 E f) (1 : Fin 2) = f.val := by
  unfold ScatterDims.window
  rw [dif_pos (show (1 : Fin 2) ∈ sd.sKept by decide)]
  rfl

/-- WHERE AN UPDATE LANDS: update (E, f) of the scatter lands at row (the E-th index word), column f, when that word is a
    row of the table. -/
theorem sd_resultIdx (idx : IVec S800000x1 32) (E : Fin 800000) (f : Fin 128)
    (h : (idx (ix2 E (0 : Fin 1))).toNat < 50000) :
    sd.resultIdx? (ix2 E f) idx = some (ix2 (⟨(idx (ix2 E (0 : Fin 1))).toNat, h⟩ : Fin 50000) f) := by
  have hi := toInt_of_lt _ h
  have hf : f.val < 128 := f.isLt
  have hall : ∀ a : Fin 2, 0 ≤ sd.start (ix2 E f) idx a + sd.window (ix2 E f) a
      ∧ sd.start (ix2 E f) idx a + sd.window (ix2 E f) a < S50000x128.size a := by
    intro a
    match a with
    | ⟨0, _⟩ =>
      show 0 ≤ sd.start (ix2 E f) idx (0 : Fin 2) + sd.window (ix2 E f) (0 : Fin 2)
        ∧ sd.start (ix2 E f) idx (0 : Fin 2) + sd.window (ix2 E f) (0 : Fin 2) < (50000 : Nat)
      rw [sd_start0, sd_window0, hi]; omega
    | ⟨1, _⟩ =>
      show 0 ≤ sd.start (ix2 E f) idx (1 : Fin 2) + sd.window (ix2 E f) (1 : Fin 2)
        ∧ sd.start (ix2 E f) idx (1 : Fin 2) + sd.window (ix2 E f) (1 : Fin 2) < (128 : Nat)
      rw [sd_start1, sd_window1]; omega
  unfold ScatterDims.resultIdx?
  rw [dif_pos hall]
  refine congrArg some (funext fun a => Fin.ext ?_)
  match a with
  | ⟨0, _⟩ =>
    show (sd.start (ix2 E f) idx (0 : Fin 2) + sd.window (ix2 E f) (0 : Fin 2)).toNat = (idx (ix2 E (0 : Fin 1))).toNat
    rw [sd_start0, sd_window0, hi]; omega
  | ⟨1, _⟩ =>
    show (sd.start (ix2 E f) idx (1 : Fin 2) + sd.window (ix2 E f) (1 : Fin 2)).toNat = f.val
    rw [sd_start1, sd_window1]; omega

/-- The start-index position result (E, f) of the gather reads its start from: row E of the index column. -/
theorem gd_siIdx (E : Fin 800000) (f : Fin 128) (c : Fin gd.startIndexMap.length) :
    gd.siIdx (ix2 E f) c = ix2 E (0 : Fin 1) := by
  funext b; refine Fin.ext ?_
  match b with
  | ⟨0, _⟩ => rfl
  | ⟨1, _⟩ =>
    have hc : c.val < 1 := c.isLt
    show c.val = 0
    omega

/-- On the row axis the slice of result (E, f) starts at the E-th index word, read signed and clamped into the table. -/
theorem gd_start0 (idx : IVec S800000x1 32) (E : Fin 800000) (f : Fin 128) :
    gd.start (ix2 E f) idx (0 : Fin 2) = min (idx (ix2 E (0 : Fin 1))).toInt.toNat (50000 - 1) := by
  unfold GatherDims.start
  rw [dif_pos (show (0 : Fin 2) ∈ gd.startIndexMap from List.mem_singleton.mpr rfl), gd_siIdx]
  rfl

/-- On the column axis it starts at 0. -/
theorem gd_start1 (idx : IVec S800000x1 32) (E : Fin 800000) (f : Fin 128) :
    gd.start (ix2 E f) idx (1 : Fin 2) = 0 := by
  unfold GatherDims.start
  rw [dif_neg (show ¬ (1 : Fin 2) ∈ gd.startIndexMap by decide)]

/-- The slice is one row: no offset along the rows … -/
theorem gd_off0 (E : Fin 800000) (f : Fin 128) : gd.offCoord (ix2 E f) (0 : Fin 2) = 0 :=
  GatherDims.offCoord_eq_zero _ _ _ (by decide)

/-- … and along the columns the offset is f. -/
theorem gd_off1 (E : Fin 800000) (f : Fin 128) : gd.offCoord (ix2 E f) (1 : Fin 2) = f.val := by
  unfold GatherDims.offCoord
  rw [dif_pos (show (1 : Fin 2) ∈ gd.sKept by decide)]
  rfl

/-- WHAT A RESULT ELEMENT READS: result (E, f) of the gather reads the table at row (the E-th index word), column f, when
    that word is a row of the table. -/
theorem gd_operandIdx (idx : IVec S800000x1 32) (E : Fin 800000) (f : Fin 128)
    (h : (idx (ix2 E (0 : Fin 1))).toNat < 50000) :
    gd.operandIdx (ix2 E f) idx = ix2 (⟨(idx (ix2 E (0 : Fin 1))).toNat, h⟩ : Fin 50000) f := by
  have hi := toInt_of_lt _ h
  funext a; refine Fin.ext ?_
  match a with
  | ⟨0, _⟩ =>
    show gd.start (ix2 E f) idx (0 : Fin 2) + gd.batchCoord (ix2 E f) (0 : Fin 2) + gd.offCoord (ix2 E f) (0 : Fin 2)
      = (idx (ix2 E (0 : Fin 1))).toNat
    rw [gd_start0, GatherDims.batchCoord_eq_zero _ _ _ List.not_mem_nil, gd_off0, hi]
    omega
  | ⟨1, _⟩ =>
    show gd.start (ix2 E f) idx (1 : Fin 2) + gd.batchCoord (ix2 E f) (1 : Fin 2) + gd.offCoord (ix2 E f) (1 : Fin 2)
      = f.val
    rw [gd_start1, GatherDims.batchCoord_eq_zero _ _ _ List.not_mem_nil, gd_off1]
    omega

/-! ## Broadcasts read at an index, and the wrap of negative index words -/

/-- A vector laid out as an [n, 1] column reads, at (E, 0), the vector at E. -/
theorem bcast_col_apply {α : Type} {n : ℕ} (h : (⟨1, ![n]⟩ : Shape).BroadcastsInDim ⟨2, ![n, 1]⟩ ![0])
    (v : (⟨1, ![n]⟩ : Shape).Idx → α) (E : Fin n) :
    broadcastInDim ⟨2, ![n, 1]⟩ ![0] h v (ix2 E (0 : Fin 1)) = v (ix1 E) :=
  broadcastInDim_apply _ h v _ _ fun a => by
    match a with
    | ⟨0, _⟩ =>
      show E.val = if n = 1 then 0 else E.val
      have := E.isLt
      split <;> omega

/-- An [n, 1] column spread along a second axis of length b reads, at (E, f), the column at (E, 0). -/
theorem bcast_rows_apply {α : Type} {n b : ℕ} (h : (⟨2, ![n, 1]⟩ : Shape).BroadcastsInDim ⟨2, ![n, b]⟩ ![0, 1])
    (v : (⟨2, ![n, 1]⟩ : Shape).Idx → α) (E : Fin n) (f : Fin b) :
    broadcastInDim ⟨2, ![n, b]⟩ ![0, 1] h v (ix2 E f) = v (ix2 E (0 : Fin 1)) :=
  broadcastInDim_apply _ h v _ _ fun a => by
    match a with
    | ⟨0, _⟩ =>
      show E.val = if n = 1 then 0 else E.val
      have := E.isLt
      split <;> omega
    | ⟨1, _⟩ => rfl

/-- A rank-zero value spread over a shape reads that value everywhere. -/
theorem bcast_scalar_apply {α : Type} {t : Shape} (h : (⟨0, ![]⟩ : Shape).BroadcastsInDim t ![])
    (v : (⟨0, ![]⟩ : Shape).Idx → α) (j : t.Idx) : broadcastInDim t ![] h v j = v ix0 :=
  broadcastInDim_apply _ h v _ _ fun a => a.elim0

/-- A source word below 50000 is not negative read signed, so the wrap of negative indices leaves it as it is. -/
theorem wrap_apply (col : IVec S800000 32) (z k : IVec S800000 32) (E : Fin 800000)
    (hz : z (ix1 E) = 0#32) (h : (col (ix1 E)).toNat < 50000) :
    select (cmpi .slt col z) (addi col k) col (ix1 E) = col (ix1 E) := by
  rw [select_apply]
  have hc : cmpi .slt col z (ix1 E) = 0#1 := by
    show IntOp.cmpi .slt (col (ix1 E)) (z (ix1 E)) = 0#1
    rw [hz]
    unfold IntOp.cmpi
    have hs : (col (ix1 E)).slt 0#32 = false := by
      rw [BitVec.slt, toInt_of_lt _ h]
      simp
    show BitVec.ofBool ((col (ix1 E)).slt 0#32) = 0#1
    rw [hs]; rfl
  rw [hc, select_zero]

/-! ## The scatter at (I, 0), the messages, the nodes' values -/

/-- The update (E, f) lands on (I, 0) exactly when the E-th index word is I and f is the first column. -/
theorem landing (idx : IVec S800000x1 32) (E : Fin 800000) (I : Fin 50000)
    (h : (idx (ix2 E (0 : Fin 1))).toNat < 50000) (f : Fin 128) :
    sd.resultIdx? (ix2 E f) idx = some (ix2 I (0 : Fin 128))
      ↔ ((idx (ix2 E (0 : Fin 1))).toNat = I.val ∧ f = 0) := by
  rw [sd_resultIdx idx E f h]
  constructor
  · intro e
    have e' := Option.some.inj e
    exact ⟨congrArg Fin.val (congrFun e' (0 : Fin 2)), congrFun e' (1 : Fin 2)⟩
  · rintro ⟨h1, rfl⟩
    exact congrArg some (congrArg (ix2 · (0 : Fin 128)) (Fin.ext h1))

/-- THE SCATTER READ AT (I, 0): what was there plus the sum, over the updates' rows whose index word is I, of the update's
    first column — when every index word is a row of the table. -/
theorem scatter_apply (z : FVec Ideal S50000x128 .f32) (idx : IVec S800000x1 32) (upd : FVec Ideal S800000x128 .f32)
    (hidx : ∀ E : Fin 800000, (idx (ix2 E (0 : Fin 1))).toNat < 50000) (I : Fin 50000) :
    Host.scatterAdd sd z idx upd (ix2 I (0 : Fin 128))
      = z (ix2 I (0 : Fin 128))
        + ∑ E : Fin 800000, if (idx (ix2 E (0 : Fin 1))).toNat = I.val then upd (ix2 E (0 : Fin 128)) else 0 := by
  show Ideal.hostScatterAdd sd z idx upd (ix2 I (0 : Fin 128)) = _
  unfold Ideal.hostScatterAdd
  refine congrArg (z (ix2 I (0 : Fin 128)) + ·) ?_
  rw [Finset.sum_filter, sum_idx2]
  refine Finset.sum_congr rfl fun E _ => ?_
  have key := landing idx E I (hidx E)
  by_cases hI : (idx (ix2 E (0 : Fin 1))).toNat = I.val
  · rw [if_pos hI, Finset.sum_eq_single (0 : Fin 128) (fun f _ hf => if_neg fun hc => hf ((key f).1 hc).2)
      (fun hn => absurd (Finset.mem_univ _) hn), if_pos ((key 0).2 ⟨hI, rfl⟩)]
  · rw [if_neg hI]
    exact Finset.sum_eq_zero fun f _ => if_neg fun hc => hI ((key f).1 hc).1

/-- The source words with the negative ones wrapped round by 50000, as the reference spells its indexing. -/
abbrev wrapped (col : IVec S800000 32) : IVec S800000 32 :=
  select (cmpi .slt col (broadcastInDim S800000 ![] bcast_S_S800000 (constantI S_ 32 0#32)))
    (addi col (broadcastInDim S800000 ![] bcast_S_S800000 (constantI S_ 32 50000#32))) col

/-- The messages: row E is the weight of edge E times the feature row of its source node. -/
abbrev msgs (L : FVec Ideal S50000x128 .f32) (w : FVec Ideal S800000 .f32) (col : IVec S800000 32) :
    FVec Ideal S800000x128 .f32 :=
  mulf (broadcastInDim S800000x128 ![0, 1] bcast_S800000x1_S800000x128_0_1
      (broadcastInDim S800000x1 ![0] bcast_S800000_S800000x1_0 w))
    (Host.gather gd L (broadcastInDim S800000x1 ![0] bcast_S800000_S800000x1_0 (wrapped col)))

/-- Message (E, f) is the weight of edge E times feature f of its source node, when the source word is a node. -/
theorem msgs_apply (L : FVec Ideal S50000x128 .f32) (w : FVec Ideal S800000 .f32) (col : IVec S800000 32)
    (hcol : ∀ E : Fin 800000, (col (ix1 E)).toNat < 50000) (E : Fin 800000) (f : Fin 128) :
    msgs L w col (ix2 E f) = w (ix1 E) * L (ix2 (⟨(col (ix1 E)).toNat, hcol E⟩ : Fin 50000) f) := by
  have e : broadcastInDim S800000x1 ![0] bcast_S800000_S800000x1_0 (wrapped col) (ix2 E (0 : Fin 1)) = col (ix1 E) := by
    rw [bcast_col_apply]
    exact wrap_apply col _ _ E (bcast_scalar_apply _ _ _) (hcol E)
  have h' : (broadcastInDim S800000x1 ![0] bcast_S800000_S800000x1_0 (wrapped col) (ix2 E (0 : Fin 1))).toNat < 50000 := by
    rw [e]; exact hcol E
  have eI : (⟨_, h'⟩ : Fin 50000) = ⟨(col (ix1 E)).toNat, hcol E⟩ := Fin.ext (congrArg BitVec.toNat e)
  unfold msgs
  rw [mulf_apply, bcast_rows_apply, bcast_col_apply]
  show w (ix1 E) * L (gd.operandIdx (ix2 E f) _) = _
  rw [gd_operandIdx _ E f h', eI]

/-- The nodes' values over all 128 features: the messages added into a table of zeros at the rows the target words name. -/
abbrev nodes (L : FVec Ideal S50000x128 .f32) (w : FVec Ideal S800000 .f32) (row col : IVec S800000 32) :
    FVec Ideal S50000x128 .f32 :=
  Host.scatterAdd sd (broadcastInDim S50000x128 ![] bcast_S_S50000x128 (constant (F := Ideal) S_ .f32 0x00000000#32))
    (broadcastInDim S800000x1 ![0] bcast_S800000_S800000x1_0 row) (msgs L w col)

/-- The first feature of node I's value is the sum, over the edges whose target word is I, of the weight times the first
    feature of the source node. -/
theorem nodes_apply (L : FVec Ideal S50000x128 .f32) (w : FVec Ideal S800000 .f32) (row col : IVec S800000 32)
    (hrow : ∀ E : Fin 800000, (row (ix1 E)).toNat < 50000) (hcol : ∀ E : Fin 800000, (col (ix1 E)).toNat < 50000)
    (I : Fin 50000) :
    nodes L w row col (ix2 I (0 : Fin 128)) = Cert.EdgeSum.refNode row col w L I := by
  unfold nodes
  rw [scatter_apply _ _ _ (fun E => by rw [bcast_col_apply]; exact hrow E) I, bcast_scalar_apply, constant_apply,
    Ideal.ofBits_zero_f32, zero_add]
  unfold Cert.EdgeSum.refNode
  refine Finset.sum_congr rfl fun E _ => ?_
  rw [bcast_col_apply, msgs_apply L w col hcol E (0 : Fin 128), dif_pos (hcol E)]

/-- THE REFERENCE'S VALUE: its thirty operations, composed, are the logistic function of the sum over the nodes of the
    positive part of the node's value, when every target word and every source word is a node index. -/
theorem value_eq (L : FVec Ideal S50000x128 .f32) (w : FVec Ideal S800000 .f32) (row col : IVec S800000 32)
    (hrow : ∀ E : Fin 800000, (row (ix1 E)).toNat < 50000) (hcol : ∀ E : Fin 800000, (col (ix1 E)).toNat < 50000) :
    Host.divf (constant (F := Ideal) S_ .f32 0x3F800000#32) (addf (constant (F := Ideal) S_ .f32 0x3F800000#32)
      (Host.exp (Host.negf (Host.reduceAdd (shapeCast S50000 (extractStridedSlice S50000x1 ![0, 0]
        (maximumf (nodes L w row col)
          (broadcastInDim S50000x128 ![] bcast_S_S50000x128 (constant (F := Ideal) S_ .f32 0x00000000#32)))
        slices_S50000x128_S50000x1_0_0) shapeCasts_S50000x1_S50000)
        (constant (F := Ideal) S_ .f32 0x00000000#32) reducesTo_S50000_S_d0 h_S_))))
      = Cert.EdgeSum.logistic (fun _ => ∑ I : Fin 50000, max (Cert.EdgeSum.refNode row col w L I) 0) := by
  unfold Cert.EdgeSum.logistic
  refine congrArg (fun s : FVec Ideal S_ .f32 => Host.divf (constant (F := Ideal) S_ .f32 0x3F800000#32)
    (addf (constant (F := Ideal) S_ .f32 0x3F800000#32) (Host.exp (Host.negf s)))) (funext fun j => ?_)
  rw [Cert.LibVector.hostSum_apply _ _ reducesTo_S50000_S_d0 h_S_ j, constant_apply, Ideal.ofBits_zero_f32,
    zero_add]
  refine Finset.sum_congr rfl fun I _ => ?_
  rw [Cert.LibVector.shapeCast_a1_a_apply, Cert.LibVector.sliceCol0_apply _ _ (by decide : 0 < 128), maximumf_apply,
    bcast_scalar_apply, constant_apply, Ideal.ofBits_zero_f32]
  exact congrArg (max · 0) (nodes_apply L w row col hrow hcol I)

/-! ## The run -/

/-- Every weakly fair execution of the reference terminates, nothing faulting, with the argument arrays as launched and
    the result buffer at the logistic function of the sum over the nodes of the positive part of the node's value — the
    sum, over the edges that end in it, of the weight times the first feature of the source node —, when every target
    word and every source word is a node index. -/
theorem run (m : (ℓ : Loc nD τ sig) → Buf (Elt Ideal) ℓ) (ρ : Dev nD → PrngReg)
    (hrow : ∀ (c : Dev nD) (E : Fin 800000),
      ((m ((c : Thread nD τ).loc main_arg2) : S800000.Idx → BitVec 32) (ix1 E)).toNat < 50000)
    (hcol : ∀ (c : Dev nD) (E : Fin 800000),
      ((m ((c : Thread nD τ).loc main_arg3) : S800000.Idx → BitVec 32) (ix1 E)).toNat < 50000) :
    θ_run defs (onTc (τ := τ) (main (F := Ideal))) ⟨m, fun _ => 0, ρ⟩ (fun r => ∀ c : Dev nD,
      r.2.mem ((c : Thread nD τ).loc main_v20)
          = Cert.EdgeSum.logistic (fun _ => ∑ I : Fin 50000, max (Cert.EdgeSum.refNode
              (m ((c : Thread nD τ).loc main_arg2)) (m ((c : Thread nD τ).loc main_arg3))
              (m ((c : Thread nD τ).loc main_arg1)) (m ((c : Thread nD τ).loc main_arg0)) I) 0)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)) := by
  refine (θ_run defs _ _).mono (fun _ h c => ⟨(h c).1.trans ?_, (h c).2⟩)
    (Cert.ReferenceIdeal.Value.run (F := Ideal) m ρ)
  exact value_eq _ _ _ _ (hrow c) (hcol c)

end Cert.ReferenceIdeal.RefValue

end
-- ==== Proof.lean ====
/-
  The kernel sums messages along the edges of a weighted graph: an edge e carries the first feature of its source
  node col e, times its weight w e, to its target node row e; a node holds the sum of what arrives; the result is the
  logistic function of the sum over the nodes of the positive part of what they hold. The kernel does the gather and
  the scatter-add by one-hot compares over zero-padded, tiled copies of the edge list (800768 entries) and of the first
  feature column (50176 entries), in two calls: the first accumulates, over the node chunks, the entry each edge's
  source word names and multiplies by the weight at the last chunk; the second accumulates, over the edge chunks, the
  messages whose target word names each node. The reference gathers rows of the [50000, 128] table, scales them,
  scatter-adds them by the target words, and reads column 0.
  The two agree where every target word and every source word is a node index (0 ≤ · < 50000): a padded edge has
  weight zero and carries nothing, a padded node is named by no edge and holds zero, and sums over the extended reals
  may be taken in any order. Outside that domain they differ (the reference clamps a gather index and drops a scatter
  index outside the table, the kernel reads zero from, and adds into, the padded entries), which is why the
  precondition states it. Finiteness of the floats is not used.
-/
import proofs.«426111_j39127152066908_1_alg».proof.Defs
import proofs.«426111_j39127152066908_1_alg».proof.Proof.Gen.Kernel
import proofs.«426111_j39127152066908_1_alg».proof.Proof.Gen.Kernel.Skeleton
import proofs.«426111_j39127152066908_1_alg».proof.Proof.Gen.Kernel.Launch
import proofs.«426111_j39127152066908_1_alg».proof.Proof.Gen.Kernel.Points
import proofs.«426111_j39127152066908_1_alg».proof.Proof.Gen.Kernel.Frame
import proofs.«426111_j39127152066908_1_alg».proof.Proof.Gen.KernelIdeal
import proofs.«426111_j39127152066908_1_alg».proof.Proof.Gen.KernelIdeal.Skeleton
import proofs.«426111_j39127152066908_1_alg».proof.Proof.Gen.KernelIdeal.Launch
import proofs.«426111_j39127152066908_1_alg».proof.Proof.Gen.KernelIdeal.Points
import proofs.«426111_j39127152066908_1_alg».proof.Proof.Gen.KernelIdeal.Frame
import proofs.«426111_j39127152066908_1_alg».proof.Proof.Gen.ReferenceIdeal
import proofs.«426111_j39127152066908_1_alg».proof.Proof.Gen.Pre_finite_inputs
import proofs.«426111_j39127152066908_1_alg».proof.Proof.EdgeSum
import proofs.«426111_j39127152066908_1_alg».proof.Proof.PreDecode
import proofs.«426111_j39127152066908_1_alg».proof.Proof.RunResult
import proofs.«426111_j39127152066908_1_alg».proof.Proof.HostRead
import proofs.«426111_j39127152066908_1_alg».proof.Proof.GatherRegion
import proofs.«426111_j39127152066908_1_alg».proof.Proof.ScatterRegion
import proofs.«426111_j39127152066908_1_alg».proof.Proof.RefValue
import Idealize.ShloMosaic.Adequacy
import Idealize.ShloMosaic.Init

noncomputable section

open scoped BigOperators

namespace Cert.Proof

open Idealize.ShloMosaic Idealize.ShloMosaic.TcCoe Idealize.SL.Sem Idealize.ShloMosaic.ValueIdx

/-! ## The kernel's result buffer -/

section KernelValue

open Cert.KernelIdeal Cert.KernelIdeal.Gen

variable (m : (ℓ : Loc nD τ sig) → Buf (Elt Ideal) ℓ) (ρ : Dev nD → PrngReg)

/-- The last boundary's result buffer: the logistic function of the sum over the padded nodes of the positive part of the
    node's sum of messages, all read off the padded arrays the first call finds. -/
theorem kernel_result (c : Dev nD) : W12 m ρ c (Proc.devRef .tc main_v13)
    = Cert.EdgeSum.logistic (fun _ => ∑ N : Fin 50176, max (Cert.EdgeSum.nodeSum (V8 m ρ c main_v4)
        (Cert.EdgeSum.msg (V8 m ρ c main_v5) (V8 m ρ c main_v3) (V8 m ρ c main_v2)) (ix1 N)) 0) := by
  rw [Cert.KernelIdeal.HostRead.result_apply, Cert.KernelIdeal.HostRead.sums_arr,
    Cert.KernelIdeal.ScatterRegion.final (V9 m ρ) c, Cert.KernelIdeal.HostRead.rowp_kept,
    Cert.KernelIdeal.HostRead.msg_arr, Cert.KernelIdeal.GatherRegion.final (V8 m ρ) c]

end KernelValue

/-! ## The claims -/

theorem frame_k : Cert.frame_Kernel := fun m ρ _ => Cert.Kernel.Gen.frame m ρ
theorem frame_ki : Cert.frame_KernelIdeal := fun m ρ _ => Cert.KernelIdeal.Gen.frame m ρ

/-- The reference's frame: its run with the result dropped, the index ranges from the precondition. -/
theorem frame_ri : Cert.frame_ReferenceIdeal := fun m ρ hpre =>
  (θ_run Cert.ReferenceIdeal.defs _ _).mono (fun _ h c => (h c).2)
    (Cert.ReferenceIdeal.RefValue.run m ρ
      (fun c => (Cert.Pre_finite_inputs.Decode.ranges (F := Ideal) _ _ _ _ (hpre c)).1)
      (fun c => (Cert.Pre_finite_inputs.Decode.ranges (F := Ideal) _ _ _ _ (hpre c)).2))

theorem preserves : Cert.preserves_Kernel_KernelIdeal := trivial

/-- Both programs end with the result buffer at the logistic function of the sum over the nodes of the positive part of
    the node's value: the reference by its run, the kernel by the two calls' result arrays and the padded sums' equality. -/
theorem algebraic : Cert.algebraic_KernelIdeal_ReferenceIdeal := by
  intro m ρ m' ρ' hpre hagree
  have hr := fun c => Cert.Pre_finite_inputs.Decode.ranges (F := Ideal) _ _ _ _ (hpre c)
  refine ⟨fun c => Cert.EdgeSum.logistic (fun _ => ∑ I : Fin 50000, max (Cert.EdgeSum.refNode
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg0)) I) 0), ?_, ?_⟩
  · refine (θ_run Cert.KernelIdeal.defs _ _).mono (fun r h c => ⟨(h c).1.trans ?_, (h c).2⟩)
      (Cert.KernelIdeal.Gen.run_result (F := Ideal) m ρ)
    rw [kernel_result]
    refine congrArg Cert.EdgeSum.logistic (funext fun _ => ?_)
    exact Cert.EdgeSum.sum_pos_eq _ _ _ _ _ _ _ _ (hr c).1 (hr c).2
      (Cert.KernelIdeal.HostRead.rowp_apply m ρ c) (Cert.KernelIdeal.HostRead.colp_apply m ρ c)
      (Cert.KernelIdeal.HostRead.wp_apply m ρ c) (Cert.KernelIdeal.HostRead.vp_apply m ρ c)
  · have hrow' : ∀ (c : Dev Cert.ReferenceIdeal.nD) (E : Fin 800000),
        ((m' ((c.tc : Thread Cert.ReferenceIdeal.nD Cert.ReferenceIdeal.τ).loc Cert.ReferenceIdeal.main_arg2)
          : Cert.ReferenceIdeal.S800000.Idx → BitVec 32) (ix1 E)).toNat < 50000 := fun c E => by
      rw [(hagree c).2.2.1]; exact (hr c).1 E
    have hcol' : ∀ (c : Dev Cert.ReferenceIdeal.nD) (E : Fin 800000),
        ((m' ((c.tc : Thread Cert.ReferenceIdeal.nD Cert.ReferenceIdeal.τ).loc Cert.ReferenceIdeal.main_arg3)
          : Cert.ReferenceIdeal.S800000.Idx → BitVec 32) (ix1 E)).toNat < 50000 := fun c E => by
      rw [(hagree c).2.2.2]; exact (hr c).2 E
    refine (θ_run Cert.ReferenceIdeal.defs _ _).mono (fun r h c => ⟨(h c).1.trans ?_, (h c).2⟩)
      (Cert.ReferenceIdeal.RefValue.run m' ρ' hrow' hcol')
    rw [(hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
